-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x100000 : Shape := ⟨2, ![128, 100000]⟩
abbrev S128 : Shape := ⟨1, ![128]⟩
abbrev S128x128 : Shape := ⟨2, ![128, 128]⟩
abbrev S128x256 : Shape := ⟨2, ![128, 256]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x100000 : S_.BroadcastsInDim S128x100000 (![] : Fin 0 → Fin S128x100000.rank)
  reducesTo_S128x100000_S_d0_1 : S128x100000.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v63 : IVec S_ 1) (main_v65 : IVec S1600000 1) (main_v67 : IVec S1600000 1) : IVec S_ 1 :=
  let main_v68 : IVec S1600000 1 := andi main_v65 main_v67
  let main_c_26 : IVec S_ 1 := constantI S_ 1 1#1
  let main_v69 : IVec S_ 1 := (fun x v => Host.reduce IntOp.andi x v reducesTo_S1600000_S_d0 h_S_) main_v68 main_c_26
  let main_v70 : IVec S_ 1 := andi main_v63 main_v69
  main_v70

def fn_part3 {F : FTy → Type} [FloatOps F] (main_arg2 : IVec S1600000 32) (main_arg13 : FVec F S64x128 .f32) (main_arg14 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_c_24 : IVec S_ 32 := constantI S_ 32 4294867296#32
  let main_v64 : IVec S1600000 32 := broadcastInDim S1600000 ![] bcast_S_S1600000 main_c_24
  let main_v65 : IVec S1600000 1 := cmpi .sge main_arg2 main_v64
  let main_c_25 : IVec S_ 32 := constantI S_ 32 100000#32
  let main_v66 : IVec S1600000 32 := broadcastInDim S1600000 ![] bcast_S_S1600000 main_c_25
  let main_v67 : IVec S1600000 1 := cmpi .slt main_arg2 main_v66
  fn_part4 (F := F) main_v63 main_v65 main_v67

def fn_part2 {F : FTy → Type} [FloatOps F] (main_arg2 : IVec S1600000 32) (main_arg9 : FVec F S128x128 .f32) (main_arg10 : FVec F S128 .f32) (main_arg11 : FVec F S128 .f32) (main_arg12 : FVec F S128 .f32) (main_arg13 : FVec F S64x128 .f32) (main_arg14 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg2 main_arg13 main_arg14 main_v48 main_v49 main_v50

def fn_part1 {F : FTy → Type} [FloatOps F] (main_arg2 : IVec S1600000 32) (main_arg6 : FVec F S128 .f32) (main_arg7 : FVec F S128x256 .f32) (main_arg8 : FVec F S128 .f32) (main_arg9 : FVec F S128x128 .f32) (main_arg10 : FVec F S128 .f32) (main_arg11 : FVec F S128 .f32) (main_arg12 : FVec F S128 .f32) (main_arg13 : FVec F S64x128 .f32) (main_arg14 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg9 main_arg10 main_arg11 main_arg12 main_arg13 main_arg14 main_v33

def fn {F : FTy → Type} [FloatOps F] (main_arg0 : FVec F S100000x128 .f32) (main_arg1 : IVec S1600000 32) (main_arg2 : IVec S1600000 32) (main_arg3 : FVec F S128x100000 .f32) (main_arg4 : FVec F S128 .f32) (main_arg5 : FVec F S128x128 .f32) (main_arg6 : FVec F S128 .f32) (main_arg7 : FVec F S128x256 .f32) (main_arg8 : FVec F S128 .f32) (main_arg9 : FVec F S128x128 .f32) (main_arg10 : FVec F S128 .f32) (main_arg11 : FVec F S128 .f32) (main_arg12 : FVec F S128 .f32) (main_arg13 : FVec F S64x128 .f32) (main_arg14 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x100000 .f32 := Host.absf main_arg3
  let main_cst_0 : FVec F S_ .f32 := constant S_ .f32 0x7F800000#32
  let main_v5 : FVec F S128x100000 .f32 := broadcastInDim S128x100000 ![] bcast_S_S128x100000 main_cst_0
  let main_v6 : IVec S128x100000 1 := cmpf .olt main_v4 main_v5
  let main_c_1 : IVec S_ 1 := constantI S_ 1 1#1
  let main_v7 : IVec S_ 1 := (fun x v => Host.reduce IntOp.andi x v reducesTo_S128x100000_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_arg7 main_arg8 main_arg9 main_arg10 main_arg11 main_arg12 main_arg13 main_arg14 main_v13 main_v16
-- ==== Kernel.lean ====
abbrev S100000x128 : Shape := ⟨2, ![100000, 128]⟩
abbrev S1600000 : Shape := ⟨1, ![1600000]⟩
abbrev S128x100000 : Shape := ⟨2, ![128, 100000]⟩
abbrev S128 : Shape := ⟨1, ![128]⟩
abbrev S128x128 : Shape := ⟨2, ![128, 128]⟩
abbrev S128x256 : Shape := ⟨2, ![128, 256]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S2000x128 : Shape := ⟨2, ![2000, 128]⟩
abbrev S2000x256 : Shape := ⟨2, ![2000, 256]⟩
abbrev S256x128 : Shape := ⟨2, ![256, 128]⟩
abbrev S1x64 : Shape := ⟨2, ![1, 64]⟩
abbrev S100000x64 : Shape := ⟨2, ![100000, 64]⟩
abbrev S2000x64 : Shape := ⟨2, ![2000, 64]⟩
abbrev S128x64 : Shape := ⟨2, ![128, 64]⟩

abbrev nBuf : Space → Nat
  | .hbm => 64
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x100000, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S64x128, .f32⟩
  | .hbm, ⟨14, _⟩ => ⟨S64, .f32⟩
  | .hbm, ⟨15, _⟩ => ⟨S100000x128, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1, .i32⟩
  | .hbm, ⟨25, _⟩ => ⟨S_, .i32⟩
  | .hbm, ⟨26, _⟩ => ⟨S1600000x1, .i32⟩
  | .hbm, ⟨27, _⟩ => ⟨S1600000x1, .i1⟩
  | .hbm, ⟨28, _⟩ => ⟨S1x1, .i32⟩
  | .hbm, ⟨29, _⟩ => ⟨S1600000x1, .i32⟩
  | .hbm, ⟨30, _⟩ => ⟨S1600000x1, .i1⟩
  | .hbm, ⟨31, _⟩ => ⟨S1600000x1, .i1⟩
  | .hbm, ⟨32, _⟩ => ⟨S_, .i1⟩
  | .hbm, ⟨33, _⟩ => ⟨S1600000, .i1⟩
  | .hbm, ⟨34, _⟩ => ⟨S1600000x128, .f32⟩
  | .hbm, ⟨35, _⟩ => ⟨S1600000x128, .i1⟩
  | .hbm, ⟨36, _⟩ => ⟨S_, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S100000x128, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x64, .f32⟩
  | .hbm, ⟨63, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x256, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S64x128, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v1 : Ref sig .tc := ⟨.hbm, 38, rfl⟩
abbrev main_cst : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11_0 : Ref sig .tc := ⟨.hbm, 49, rfl⟩
abbrev main_v11_1 : Ref sig .tc := ⟨.hbm, 50, rfl⟩
abbrev main_v11_2 : Ref sig .tc := ⟨.hbm, 51, rfl⟩
abbrev main_cst_0 : Ref sig .tc := ⟨.hbm, 52, rfl⟩
abbrev main_v12 : Ref sig .tc := ⟨.hbm, 53, rfl⟩
abbrev main_v13 : Ref sig .tc := ⟨.hbm, 54, rfl⟩
abbrev main_cst_1 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S128x100000_S100000x128_1_0 : S128x100000.Transposes [1, 0] S100000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S1x128_S1x128 : S1x128.ShapeCasts S1x128
  broadcasts_S1x128_S2000x128 : S1x128.Broadcasts S2000x128
  concatenates_S2000x128_S2000x128_S2000x256_d1 : Shape.Concatenates [S2000x128, S2000x128] S2000x256 1
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  reduces_S2000x128_S128 : S2000x128.Reduces [0] S128
  bcast_S_S1x128 : S_.BroadcastsInDim S1x128 (![] : Fin 0 → Fin S1x128.rank)
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S100000x64.size a
  hwx1_7 : ∀ i : grid1.Coords, EltTy.bits .f32 = 32 ∨ (Rect.block (s := S100000x64) S2000x64.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S1x128.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11_2) S1x128.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v11_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x100000 : Shape := ⟨2, ![128, 100000]⟩
abbrev S128 : Shape := ⟨1, ![128]⟩
abbrev S128x128 : Shape := ⟨2, ![128, 128]⟩
abbrev S128x256 : Shape := ⟨2, ![128, 256]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x256 : Shape := ⟨2, ![100000, 256]⟩
abbrev S256x128 : Shape := ⟨2, ![256, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x100000, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S64x128, .f32⟩
  | .hbm, ⟨14, _⟩ => ⟨S64, .f32⟩
  | .hbm, ⟨15, _⟩ => ⟨S100000x128, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S100000x256, .f32⟩
  | .hbm, ⟨38, _⟩ => ⟨S256x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S128x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S128x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call0_cst : Ref sig .tc := ⟨.hbm, 45, rfl⟩
abbrev main_call0_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_cst : Ref sig .tc := ⟨.hbm, 53, rfl⟩
abbrev main_call1_v0 : Ref sig .tc := ⟨.hbm, 54, rfl⟩
abbrev main_v33 : Ref sig .tc := ⟨.hbm, 55, rfl⟩
abbrev main_cst_1 : Ref sig .tc := ⟨.hbm, 56, rfl⟩
abbrev main_v34 : Ref sig .tc := ⟨.hbm, 57, rfl⟩
abbrev main_cst_2 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]

class Facts₀ : Prop where
  transposes_S128x100000_S100000x128_1_0 : S128x100000.Transposes [1, 0] S100000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x128_S128x128_1_0 : S128x128.Transposes [1, 0] S128x128
  concatenates_S100000x128_S100000x128_S100000x256_d1 : Shape.Concatenates [S100000x128, S100000x128] S100000x256 1
  transposes_S128x256_S256x128_1_0 : S128x256.Transposes [1, 0] S256x128
  reducesTo_S100000x128_S128_d0 : S100000x128.ReducesTo [0] S128
  h_S_ : 0 < S_.numel
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x256_S256x128_S100000x128_1_0_0_1_n_n_wf : DotDims.WF S100000x256 S256x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The network, stage by stage, as functions on the extended reals, index by index.

  Rows are nodes (100000 of them), columns are features. `xX` is the linear layer on the node features;
  `hid` the linear layer on the row-wise join of the aggregated features `xA` with `xX`, plus both as
  residuals, clipped below at zero; `act` a further linear layer clipped at zero; `H1` their composite.
  `colsum` and `colsumsq` are a column's sum and sum of squares over all rows; `mean` and `varK` the column
  mean and the mean of squares less the squared mean. `out` normalises each column by its mean and variance,
  scales, shifts and applies the last linear layer. Row vectors are kept as matrices with one row. The per-row
  stages are stated on any number of rows: a row of the result depends on that row of the inputs only, so a block of
  rows of the whole array is the same function of the block of rows of the inputs.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns. -/
abbrev Mat (a b : ℕ) : Type := (⟨2, ![a, b]⟩ : Shape).Idx → EReal
/-- A vector of extended reals of length `a`. -/
abbrev Vc (a : ℕ) : Type := (⟨1, ![a]⟩ : Shape).Idx → EReal

/-- The number of rows. -/
abbrev NR : ℕ := 100000

/-- The float zero, the variance offset and the row count, as the programs spell them. -/
abbrev zero32 : EReal := Ideal.ofBits .f32 0x00000000#32
abbrev eps32 : EReal := Ideal.ofBits .f32 0x3727C5AC#32
abbrev rows32 : EReal := Ideal.ofBits .f32 0x47C35000#32

/-- A vector as a matrix with one row. -/
def row {a : ℕ} (b : Vc a) : Mat 1 a := fun i => b (ix1 (i 1))

variable {n : ℕ}

/-- `x · WXᵀ + bX`, on any number `n` of rows. -/
def xX (x : Mat n 128) (WX : Mat 128 128) (bX : Mat 1 128) : Mat n 128 :=
  fun i => (∑ k : Fin 128, x (ix2 (i 0) k) * WX (ix2 (i 1) k)) + bX (ix2 0 (i 1))

/-- Row `p` of the join `[xA | xXv]`, 256 entries. -/
def cat (xA xXv : Mat n 128) (p : Fin n) (k : Fin 256) : EReal :=
  if h : k.val < 128 then xA (ix2 p ⟨k.val, h⟩) else xXv (ix2 p ⟨k.val - 128, by have := k.isLt; omega⟩)

/-- `max (([xA | xXv] · Wᵀ + bW) + xA + xXv) 0`. -/
def hid (xA xXv : Mat n 128) (W : Mat 128 256) (bW : Mat 1 128) : Mat n 128 :=
  fun i => max ((((∑ k : Fin 256, cat xA xXv (i 0) k * W (ix2 (i 1) k)) + bW (ix2 0 (i 1))) + xA (ix2 (i 0) (i 1)))
    + xXv (ix2 (i 0) (i 1))) zero32

/-- `max (h · W1ᵀ + b1) 0`. -/
def act (h : Mat n 128) (W1 : Mat 128 128) (b1 : Mat 1 128) : Mat n 128 :=
  fun i => max ((∑ k : Fin 128, h (ix2 (i 0) k) * W1 (ix2 (i 1) k)) + b1 (ix2 0 (i 1))) zero32

/-- The activations the statistics are taken of. -/
def H1 (x xA : Mat n 128) (WX : Mat 128 128) (bX : Mat 1 128) (W : Mat 128 256) (bW : Mat 1 128)
    (W1 : Mat 128 128) (b1 : Mat 1 128) : Mat n 128 :=
  act (hid xA (xX x WX bX) W bW) W1 b1

/-- A column's sum over all rows. -/
def colsum (a : Mat NR 128) : Mat 1 128 := fun i => ∑ p : Fin NR, a (ix2 p (i 1))
/-- A column's sum of squares over all rows. -/
def colsumsq (a : Mat NR 128) : Mat 1 128 := fun i => ∑ p : Fin NR, a (ix2 p (i 1)) * a (ix2 p (i 1))

/-- The column mean from the column sum. -/
def mean (s : Mat 1 128) : Mat 1 128 := fun i => Ideal.div (s i) rows32
/-- The mean of squares less the squared mean. -/
def varK (s ss : Mat 1 128) : Mat 1 128 := fun i => Ideal.div (ss i) rows32 - mean s i * mean s i

/-- Normalise, scale, shift, and apply the last linear layer. -/
def out (h : Mat n 128) (mu var g be : Mat 1 128) (W2 : Mat 64 128) (b2 : Mat 1 64) : Mat n 64 :=
  fun i => (∑ k : Fin 128,
      ((((h (ix2 (i 0) k) - mu (ix2 0 k)) * Ideal.rsqrt (var (ix2 0 k) + eps32)) * g (ix2 0 k)) + be (ix2 0 k))
        * W2 (ix2 (i 1) k)) + b2 (ix2 0 (i 1))

/-- Every column index lies in `[-100000, 100000)` as a signed word: the range in which indexing an axis of 100000
    entries, negative indices counting from the end, is defined. -/
def ColOk (col : (⟨1, ![1600000]⟩ : Shape).Idx → BitVec 32) : Prop :=
  ∀ e, IntOp.cmpi .sge (col e) 4294867296#32 = 1#1 ∧ IntOp.cmpi .slt (col e) 100000#32 = 1#1

end Cert.Spec

end
-- ==== Proof.Glue.lean ====
/-
  The host operations around the two kernel regions, read back. Before the first region: the table is transposed,
  the column indices wrapped (a negative index counts from the end), the rows gathered — with every row whose wrapped
  index is outside the table replaced by a fill — scatter-added at the row indices and biased: the aggregated
  features `xA`; three biases are reshaped to one-row matrices. Between the regions: the column sums and sums of
  squares are divided by the row count and combined into the mean and the variance; three more vectors are reshaped.
  When every column index is in `[-100000, 100000)` every wrapped index is inside the table, no row is replaced, and
  `xA` is the reference's own term.
-/
import proofs.«414882_j86947317941135_1_alg».proof.Proof.Gen.KernelIdeal.Frame
import proofs.«414882_j86947317941135_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«414882_j86947317941135_1_alg».proof.Proof.Gen.ReferenceIdeal.Read
import Idealize.ShloMosaic.Lib.StableHlo.Run
import Idealize.ShloMosaic.Lib.StableHlo.Predicate
set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem Idealize.ShloMosaic.Pipeline
open Cert.Spec (Mat NR)

variable (m : (ℓ : Loc nD τ sig) → Buf (Elt Ideal) ℓ) (ρ : Dev nD → PrngReg)

/-- A buffer that no operation of a stretch writes is read through the stretch unchanged. -/
local macro "unwritten" : tactic => `(tactic| exact StableHlo.after_of_forall_not_mem _ _ (List.forall_iff_forall_mem.mp (by
  simp only [hostOps0, hostOps0_1, hostOps0_2, hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

/-- A vector reshaped to a one-row matrix is its row form. -/
private theorem reshape_row {a : ℕ} (x : (⟨1, ![a]⟩ : Shape).Idx → EReal)
    (h : (⟨1, ![a]⟩ : Shape).ShapeCasts ⟨2, ![1, a]⟩) :
    shapeCast ⟨2, ![1, a]⟩ x h = Cert.Spec.row x := by
  funext i
  exact (congrArg (shapeCast ⟨2, ![1, a]⟩ x h) (eq_ix2 i)).trans (shapeCast_a_1a_apply x h (i 0) (i 1))

/-! ## What the first region finds -/

theorem V3_arg0 (c : Dev nD) : V3 m ρ c main_arg0 = (m ((c.tc : Thread nD τ).loc main_arg0)) :=
  calc W3 m ρ c (Proc.devRef .tc main_arg0)
    _ = W2 m ρ c (Proc.devRef .tc main_arg0) := by unwritten
    _ = W1 m ρ c (Proc.devRef .tc main_arg0) := by unwritten
    _ = W0 m ρ c (Proc.devRef .tc main_arg0) := by unwritten
    _ = m ((c : Thread nD τ).loc main_arg0) := rfl
theorem V3_arg5 (c : Dev nD) : V3 m ρ c main_arg5 = (m ((c.tc : Thread nD τ).loc main_arg5)) :=
  calc W3 m ρ c (Proc.devRef .tc main_arg5)
    _ = W2 m ρ c (Proc.devRef .tc main_arg5) := by unwritten
    _ = W1 m ρ c (Proc.devRef .tc main_arg5) := by unwritten
    _ = W0 m ρ c (Proc.devRef .tc main_arg5) := by unwritten
    _ = m ((c : Thread nD τ).loc main_arg5) := rfl
theorem V3_arg7 (c : Dev nD) : V3 m ρ c main_arg7 = (m ((c.tc : Thread nD τ).loc main_arg7)) :=
  calc W3 m ρ c (Proc.devRef .tc main_arg7)
    _ = W2 m ρ c (Proc.devRef .tc main_arg7) := by unwritten
    _ = W1 m ρ c (Proc.devRef .tc main_arg7) := by unwritten
    _ = W0 m ρ c (Proc.devRef .tc main_arg7) := by unwritten
    _ = m ((c : Thread nD τ).loc main_arg7) := rfl
theorem V3_arg9 (c : Dev nD) : V3 m ρ c main_arg9 = (m ((c.tc : Thread nD τ).loc main_arg9)) :=
  calc W3 m ρ c (Proc.devRef .tc main_arg9)
    _ = W2 m ρ c (Proc.devRef .tc main_arg9) := by unwritten
    _ = W1 m ρ c (Proc.devRef .tc main_arg9) := by unwritten
    _ = W0 m ρ c (Proc.devRef .tc main_arg9) := by unwritten
    _ = m ((c : Thread nD τ).loc main_arg9) := rfl
theorem V3_v8 (c : Dev nD) : V3 m ρ c main_v8 = Cert.Spec.row (m ((c.tc : Thread nD τ).loc main_arg6)) := by
  show StableHlo.after hostOps0_2 (W2 m ρ c) (Proc.devRef .tc main_v8) = _
  after_results
  exact reshape_row _ _
theorem V3_v9 (c : Dev nD) : V3 m ρ c main_v9 = Cert.Spec.row (m ((c.tc : Thread nD τ).loc main_arg8)) := by
  show StableHlo.after hostOps0_2 (W2 m ρ c) (Proc.devRef .tc main_v9) = _
  after_results
  exact reshape_row _ _
theorem V3_v10 (c : Dev nD) : V3 m ρ c main_v10 = Cert.Spec.row (m ((c.tc : Thread nD τ).loc main_arg10)) := by
  show StableHlo.after hostOps0_2 (W2 m ρ c) (Proc.devRef .tc main_v10) = _
  after_results
  exact reshape_row _ _

/-! ## Words: a column index wrapped once is inside the table -/

private theorem ofBool_one (b : Bool) : BitVec.ofBool b = 1#1 ↔ b = true := by cases b <;> decide

/-- A signed word in [-100000, 100000), wrapped once (a negative one plus 100000), lies in [0, 99999]. -/
private theorem wrap_mask (c : BitVec 32)
    (h1 : IntOp.cmpi .sge c 4294867296#32 = 1#1) (h2 : IntOp.cmpi .slt c 100000#32 = 1#1) :
    IntOp.cmpi .sge (Scalar.select (IntOp.cmpi .slt c 0#32) (IntOp.addi c 100000#32) c) 0#32 = 1#1
    ∧ IntOp.cmpi .sle (Scalar.select (IntOp.cmpi .slt c 0#32) (IntOp.addi c 100000#32) c) 99999#32 = 1#1 := by
  have e1 : (4294867296#32 : BitVec 32).toInt = -100000 := by decide
  have e2 : (100000#32 : BitVec 32).toInt = 100000 := by decide
  have e0 : (0#32 : BitVec 32).toInt = 0 := by decide
  have e9 : (99999#32 : BitVec 32).toInt = 99999 := by decide
  have g1 : -100000 ≤ c.toInt := by
    simp only [IntOp.cmpi, ofBool_one] at h1
    rw [BitVec.sle_iff_toInt_le, e1] at h1; exact h1
  have g2 : c.toInt < 100000 := by
    simp only [IntOp.cmpi, ofBool_one] at h2
    rw [BitVec.slt_iff_toInt_lt, e2] at h2; exact h2
  by_cases hneg : c.slt 0#32 = true
  · have hs : IntOp.cmpi .slt c 0#32 = 1#1 := by simp only [IntOp.cmpi, hneg]; rfl
    rw [hs, ValueIdx.select_one]
    have hn : c.toInt < 0 := by rw [BitVec.slt_iff_toInt_lt, e0] at hneg; exact hneg
    have hadd : (c + 100000#32).toInt = c.toInt + 100000 := by
      rw [BitVec.toInt_add, e2]
      exact Int.bmod_eq_of_le (by omega) (by omega)
    simp only [IntOp.cmpi, IntOp.addi, ofBool_one]
    rw [BitVec.sle_iff_toInt_le, BitVec.sle_iff_toInt_le, hadd, e0, e9]
    omega
  · have hf : c.slt 0#32 = false := by simpa using hneg
    have hs : IntOp.cmpi .slt c 0#32 = 0#1 := by simp only [IntOp.cmpi, hf]; rfl
    rw [hs, ValueIdx.select_zero]
    have hn : 0 ≤ c.toInt := by
      have : ¬ c.toInt < 0 := by
        intro h; rw [← e0, ← BitVec.slt_iff_toInt_lt] at h; rw [h] at hf; exact Bool.noConfusion hf
      omega
    simp only [IntOp.cmpi, ofBool_one]
    rw [BitVec.sle_iff_toInt_le, BitVec.sle_iff_toInt_le, e0, e9]
    omega

/-- A left fold by `and` from 1 over ones is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and` from 1 of an array of ones is 1 at every index. -/
private theorem reduce_andi_ones {s t u : Shape} {axes : List (Fin s.rank)} (x : s.Idx → BitVec 1) (init : u.Idx → BitVec 1)
    (h : s.ReducesTo axes t) (hu : 0 < u.numel) (hi : ∀ k, init k = 1#1) (hx : ∀ i, x i = 1#1) (j : t.Idx) :
    Host.reduce IntOp.andi x init h hu j = 1#1 := by
  rw [Host.reduce_eq_foldl, hi]
  exact foldl_andi_ones x hx _

/-! ## The gather at wrapped indices, as the first program spells it and as the second does -/

/-- A column index wrapped: a negative one counts from the end of the table's 100000 rows. -/
private def wrapIdx (col : Vec Ideal S1600000 .i32) : Vec Ideal S1600000 .i32 :=
  select (cmpi .slt col (broadcastInDim S1600000 ![] bcast_S_S1600000 (constantI S_ 32 0#32)))
    (addi col (broadcastInDim S1600000 ![] bcast_S_S1600000 (constantI S_ 32 100000#32))) col

/-- The table's rows at the wrapped indices. -/
private def gathered (tbl : Vec Ideal S100000x128 .f32) (col : Vec Ideal S1600000 .i32) : Vec Ideal S1600000x128 .f32 :=
  Host.gather gather_S100000x128_S1600000x1_S1600000x128_1_0_n_n_0_1_1128 tbl
    (broadcastInDim S1600000x1 ![0] bcast_S1600000_S1600000x1_0 (wrapIdx col))

/-- Which wrapped indices are inside the table: `0 ≤ ·` and `· ≤ 99999`, conjoined over the unit axis. -/
private def takeMask (col : Vec Ideal S1600000 .i32) : Vec Ideal S1600000 .i1 :=
  Host.reduce IntOp.andi
    (andi
      (cmpi .sge (broadcastInDim S1600000x1 ![0] bcast_S1600000_S1600000x1_0 (wrapIdx col))
        (broadcastInDim S1600000x1 ![] bcast_S_S1600000x1 (constantI S_ 32 0#32)))
      (cmpi .sle (broadcastInDim S1600000x1 ![0] bcast_S1600000_S1600000x1_0 (wrapIdx col))
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The gather with every row whose wrapped index is outside the table replaced by a fill. -/
private def take (tbl : Vec Ideal S100000x128 .f32) (col : Vec Ideal S1600000 .i32) : Vec Ideal S1600000x128 .f32 :=
  select (broadcastInDim S1600000x128 ![0] bcast_S1600000_S1600000x128_0 (takeMask col)) (gathered tbl col)
    (broadcastInDim S1600000x128 ![] bcast_S_S1600000x128 (constant (F := Ideal) S_ .f32 0x7FC00000#32))

/-- In range, every wrapped index is inside the table. -/
private theorem takeMask_one (col : Vec Ideal S1600000 .i32) (hcol : Cert.Spec.ColOk col) (e : S1600000.Idx) :
    takeMask col e = 1#1 := by
  unfold takeMask
  refine reduce_andi_ones _ _ _ _ (fun _ => rfl) (fun i => ?_) e
  obtain ⟨k, hk⟩ : ∃ k, broadcastInDim S1600000x1 ![0] bcast_S1600000_S1600000x1_0 (wrapIdx col) i = wrapIdx col k :=
    ⟨_, rfl⟩
  have hw := wrap_mask (col k) (hcol k).1 (hcol k).2
  show IntOp.andi
      (IntOp.cmpi .sge (broadcastInDim S1600000x1 ![0] bcast_S1600000_S1600000x1_0 (wrapIdx col) i) 0#32)
      (IntOp.cmpi .sle (broadcastInDim S1600000x1 ![0] bcast_S1600000_S1600000x1_0 (wrapIdx col) i) 99999#32) = 1#1
  rw [hk]
  exact IntOp.andi_eq_one.2 hw

/-- So no row is replaced. -/
private theorem take_eq_gathered (tbl : Vec Ideal S100000x128 .f32) (col : Vec Ideal S1600000 .i32)
    (hcol : Cert.Spec.ColOk col) : take tbl col = gathered tbl col := by
  funext i
  unfold take
  rw [select_apply, show broadcastInDim S1600000x128 ![0] bcast_S1600000_S1600000x128_0 (takeMask col) i = 1#1 from
    takeMask_one col hcol _, select_one]

/-- Contents moved to a buffer's own type and back are the contents. -/
private theorem ofBuf_toBuf {T : BufTy} (x : StableHlo.TRef sig T) (v : T.Contents (Elt Ideal)) :
    x.ofBuf (x.toBuf v) = v := by
  simp only [StableHlo.TRef.ofBuf, StableHlo.TRef.toBuf, cast_cast, cast_eq]

private theorem after1_v1 (W : Valuation τ sig (Elt Ideal)) :
    StableHlo.after hostOps0_1 W (Proc.devRef .tc main_v1)
      = take (W (Proc.devRef .tc main_v0)) (W (Proc.devRef .tc main_arg2)) := by
  after_results_simp
  simp only [ofBuf_toBuf]
  have hA : ∀ h1 h2 h3, (StableHlo.TRef.of (T := ⟨S1600000, .i32⟩) main_arg2 h1 h2 h3).ofBuf (W (Proc.devRef .tc main_arg2))
      = W (Proc.devRef .tc main_arg2) := fun _ _ _ => rfl
  have hT : ∀ h1 h2 h3, (StableHlo.TRef.of (T := ⟨S100000x128, .f32⟩) main_v0 h1 h2 h3).ofBuf (W (Proc.devRef .tc main_v0))
      = W (Proc.devRef .tc main_v0) := fun _ _ _ => rfl
  have hO : ∀ h1 h2 h3 (X : (⟨S1600000x128, .f32⟩ : BufTy).Contents (Elt Ideal)),
      (StableHlo.TRef.of (T := ⟨S1600000x128, .f32⟩) main_v1 h1 h2 h3).toBuf X = X := fun _ _ _ _ => rfl
  simp only [hA, hT, hO]
  unfold take takeMask gathered wrapIdx
  rfl

/-! ## The aggregated features -/

/-- The tail both programs share: the gathered rows scatter-added at the row indices into zeros, plus the bias. -/
private def agg (row : Vec Ideal S1600000 .i32) (g : Vec Ideal S1600000x128 .f32) (b : Vec Ideal S128 .f32) :
    Vec Ideal S100000x128 .f32 :=
  addf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 row) g)
    (broadcastInDim S100000x128 ![0, 1] bcast_S1x128_S100000x128_0_1 (broadcastInDim S1x128 ![1] bcast_S128_S1x128_1 b))

private theorem after2_v7 (W : Valuation τ sig (Elt Ideal)) :
    StableHlo.after hostOps0_2 W (Proc.devRef .tc main_v7)
      = agg (W (Proc.devRef .tc main_arg1)) (W (Proc.devRef .tc main_v1)) (W (Proc.devRef .tc main_arg4)) := by
  after_results
  rfl

private theorem after0_v0 (W : Valuation τ sig (Elt Ideal)) :
    StableHlo.after hostOps0 W (Proc.devRef .tc main_v0)
      = transpose S100000x128 [1, 0] (W (Proc.devRef .tc main_arg3)) transposes_S128x100000_S100000x128_1_0 := by
  after_results

/-- The second program gathers at the same wrapped indices, with no replacement. -/
private theorem ref_gather (x2 : Vec Ideal S1600000 .i32) (x3 : Vec Ideal S128x100000 .f32) :
    Cert.ReferenceIdeal.Read.val_main_v7 (F := Ideal) x2 x3
      = gathered (transpose S100000x128 [1, 0] x3 transposes_S128x100000_S100000x128_1_0) x2 := by
  unfold Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 gathered wrapIdx
  rfl

/-- The second program's aggregated features are the shared tail over its gather. -/
private theorem ref_agg (x1 x2 : Vec Ideal S1600000 .i32) (x3 : Vec Ideal S128x100000 .f32) (x4 : Vec Ideal S128 .f32) :
    Cert.ReferenceIdeal.Read.val_main_v13 (F := Ideal) x1 x2 x3 x4
      = agg x1 (Cert.ReferenceIdeal.Read.val_main_v7 (F := Ideal) x2 x3) x4 := by
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_cst agg
  rfl

/-- The aggregated features the first region finds are the reference's, when every column index is in range. -/
theorem V3_v7 (c : Dev nD) (hcol : Cert.Spec.ColOk (m ((c.tc : Thread nD τ).loc main_arg2))) :
    V3 m ρ c main_v7
      = Cert.ReferenceIdeal.Read.val_main_v13 (F := Ideal) (m ((c.tc : Thread nD τ).loc main_arg1)) (m ((c.tc : Thread nD τ).loc main_arg2)) (m ((c.tc : Thread nD τ).loc main_arg3)) (m ((c.tc : Thread nD τ).loc main_arg4)) := by
  have e1 : W2 m ρ c (Proc.devRef .tc main_arg1) = m ((c : Thread nD τ).loc main_arg1) :=
    calc W2 m ρ c (Proc.devRef .tc main_arg1)
      _ = W1 m ρ c (Proc.devRef .tc main_arg1) := by unwritten
      _ = W0 m ρ c (Proc.devRef .tc main_arg1) := by unwritten
      _ = m ((c : Thread nD τ).loc main_arg1) := rfl
  have e4 : W2 m ρ c (Proc.devRef .tc main_arg4) = m ((c : Thread nD τ).loc main_arg4) :=
    calc W2 m ρ c (Proc.devRef .tc main_arg4)
      _ = W1 m ρ c (Proc.devRef .tc main_arg4) := by unwritten
      _ = W0 m ρ c (Proc.devRef .tc main_arg4) := by unwritten
      _ = m ((c : Thread nD τ).loc main_arg4) := rfl
  have e2 : W1 m ρ c (Proc.devRef .tc main_arg2) = m ((c : Thread nD τ).loc main_arg2) :=
    calc W1 m ρ c (Proc.devRef .tc main_arg2)
      _ = W0 m ρ c (Proc.devRef .tc main_arg2) := by unwritten
      _ = m ((c : Thread nD τ).loc main_arg2) := rfl
  have e0 : W1 m ρ c (Proc.devRef .tc main_v0)
      = transpose S100000x128 [1, 0] (m ((c : Thread nD τ).loc main_arg3)) transposes_S128x100000_S100000x128_1_0 :=
    after0_v0 (W0 m ρ c)
  have ev1 : W2 m ρ c (Proc.devRef .tc main_v1)
      = Cert.ReferenceIdeal.Read.val_main_v7 (F := Ideal) (m ((c : Thread nD τ).loc main_arg2)) (m ((c : Thread nD τ).loc main_arg3)) := by
    refine (after1_v1 (W1 m ρ c)).trans ?_
    rw [e2, e0, take_eq_gathered _ _ hcol, ref_gather]
  refine (after2_v7 (W2 m ρ c)).trans ?_
  rw [e1, e4, ev1, ref_agg]

/-! ## What the second region finds -/

theorem V5_v11_0 (c : Dev nD) : V5 m ρ c main_v11_0 = (dat0 (F := Ideal) (V3 m ρ) c).arrAt 8 cfg0.N :=
  calc W5 m ρ c (Proc.devRef .tc main_v11_0)
    _ = W4 m ρ c (Proc.devRef .tc main_v11_0) := by unwritten
    _ = _ := W4_arr m ρ c 8
theorem V5_v13 (c : Dev nD) : V5 m ρ c main_v13 = Cert.Spec.mean ((dat0 (F := Ideal) (V3 m ρ) c).arrAt 9 cfg0.N) := by
  show StableHlo.after hostOps1 (W4 m ρ c) (Proc.devRef .tc main_v13) = _
  after_results
  rw [show W4 m ρ c (Proc.devRef .tc main_v11_1) = _ from W4_arr m ρ c 9]
  rfl
theorem V5_v17 (c : Dev nD) :
    V5 m ρ c main_v17
      = Cert.Spec.varK ((dat0 (F := Ideal) (V3 m ρ) c).arrAt 9 cfg0.N) ((dat0 (F := Ideal) (V3 m ρ) c).arrAt 10 cfg0.N) := by
  show StableHlo.after hostOps1 (W4 m ρ c) (Proc.devRef .tc main_v17) = _
  after_results
  rw [show W4 m ρ c (Proc.devRef .tc main_v11_1) = _ from W4_arr m ρ c 9,
    show W4 m ρ c (Proc.devRef .tc main_v11_2) = _ from W4_arr m ρ c 10]
  rfl
/-- Argument 11 after the first region is the launch memory's: no operation and no window of the region writes it. -/
private theorem W4_arg11 (c : Dev nD) : W4 m ρ c (Proc.devRef .tc main_arg11) = m ((c.tc : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by unwritten
    _ = W1 m ρ c (Proc.devRef .tc main_arg11) := by unwritten
    _ = W0 m ρ c (Proc.devRef .tc main_arg11) := by unwritten
    _ = m ((c : Thread nD τ).loc main_arg11) := rfl
/-- Argument 12 after the first region is the launch memory's: no operation and no window of the region writes it. -/
private theorem W4_arg12 (c : Dev nD) : W4 m ρ c (Proc.devRef .tc main_arg12) = m ((c.tc : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by unwritten
    _ = W1 m ρ c (Proc.devRef .tc main_arg12) := by unwritten
    _ = W0 m ρ c (Proc.devRef .tc main_arg12) := by unwritten
    _ = m ((c : Thread nD τ).loc main_arg12) := rfl
/-- Argument 14 after the first region is the launch memory's: no operation and no window of the region writes it. -/
private theorem W4_arg14 (c : Dev nD) : W4 m ρ c (Proc.devRef .tc main_arg14) = m ((c.tc : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := by unwritten
    _ = W1 m ρ c (Proc.devRef .tc main_arg14) := by unwritten
    _ = W0 m ρ c (Proc.devRef .tc main_arg14) := by unwritten
    _ = m ((c : Thread nD τ).loc main_arg14) := rfl
theorem V5_v18 (c : Dev nD) : V5 m ρ c main_v18 = Cert.Spec.row (m ((c.tc : Thread nD τ).loc main_arg11)) := by
  show StableHlo.after hostOps1 (W4 m ρ c) (Proc.devRef .tc main_v18) = _
  after_results
  rw [W4_arg11 m ρ c]
  exact reshape_row _ _
theorem V5_v19 (c : Dev nD) : V5 m ρ c main_v19 = Cert.Spec.row (m ((c.tc : Thread nD τ).loc main_arg12)) := by
  show StableHlo.after hostOps1 (W4 m ρ c) (Proc.devRef .tc main_v19) = _
  after_results
  rw [W4_arg12 m ρ c]
  exact reshape_row _ _
theorem V5_arg13 (c : Dev nD) : V5 m ρ c main_arg13 = (m ((c.tc : Thread nD τ).loc main_arg13)) :=
  calc W5 m ρ c (Proc.devRef .tc main_arg13)
    _ = W4 m ρ c (Proc.devRef .tc main_arg13) := by unwritten
    _ = W3 m ρ c (Proc.devRef .tc main_arg13) := W4_of_ne m ρ c main_arg13 (by decide)
    _ = W2 m ρ c (Proc.devRef .tc main_arg13) := by unwritten
    _ = W1 m ρ c (Proc.devRef .tc main_arg13) := by unwritten
    _ = W0 m ρ c (Proc.devRef .tc main_arg13) := by unwritten
    _ = m ((c : Thread nD τ).loc main_arg13) := rfl
theorem V5_v20 (c : Dev nD) : V5 m ρ c main_v20 = Cert.Spec.row (m ((c.tc : Thread nD τ).loc main_arg14)) := by
  show StableHlo.after hostOps1 (W4 m ρ c) (Proc.devRef .tc main_v20) = _
  after_results
  rw [W4_arg14 m ρ c]
  exact reshape_row _ _

/-! ## The result buffer at the end -/

theorem W6_v21 (c : Dev nD) : W6 m ρ c (Proc.devRef .tc main_v21) = (dat1 (F := Ideal) (V5 m ρ) c).arrAt 7 cfg1.N :=
  W6_arr m ρ c 7

end Cert.KernelIdeal.Val

end
-- ==== Proof.Pay0.lean ====
/-
  What the first kernel's body computes from the blocks it loads, as whole-block equations on the extended reals. A
  change of float format is the identity, a matrix product into a zero accumulator is the sum over the contracted
  axis, a transposed weight matrix is read with its two indices exchanged, the join of two blocks along the columns is
  read left or right of column 128, and a reduction over the rows is the sum over the rows.
-/
import proofs.«414882_j86947317941135_1_alg».proof.Proof.Gen.KernelIdeal.Skeleton
import proofs.«414882_j86947317941135_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx
open Cert.Spec (Mat)

/-- The left operand of the product is read at the output's row … -/
private theorem lhs_a_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and at the contracted index as its column; -/
private theorem lhs_a_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at the contracted index as its row … -/
private theorem rhs_a_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and at the output's column. -/
private theorem rhs_a_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A matrix product into the zero accumulator, read at an entry: the sum over the 128 contracted indices. -/
private theorem mm_a_apply (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_a_0 _ _
    | ⟨1, _⟩ => exact (lhs_a_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_a_0 _ _).trans hk
    | ⟨1, _⟩ => exact rhs_a_1 _ _)
  rw [el, er]

/-- The left operand of the product is read at the output's row … -/
private theorem lhs_b_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- … and at the contracted index as its column; -/
private theorem lhs_b_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- the right operand at the contracted index as its row … -/
private theorem rhs_b_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- … and at the output's column. -/
private theorem rhs_b_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A matrix product into the zero accumulator, read at an entry: the sum over the 256 contracted indices. -/
private theorem mm_b_apply (A : FVec Ideal S2000x256 .bf16) (B : FVec Ideal S256x128 .bf16) (p : Fin 2000) (q : Fin 128) :
    matmul dot_S2000x256_S256x128_S2000x128_1_0_0_1_n_n none A B (constant (F := Ideal) S2000x128 .f32 0x00000000#32) (ix2 p q)
      = ∑ k : Fin 256, A (ix2 p k) * B (ix2 k q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_b_0 _ _
    | ⟨1, _⟩ => exact (lhs_b_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_b_0 _ _).trans hk
    | ⟨1, _⟩ => exact rhs_b_1 _ _)
  rw [el, er]

/-- A one-row block broadcast over the rows is read at its column. -/
private theorem bcast_row_apply (b : FVec Ideal S1x128 .f32) (hB : S1x128.Broadcasts S2000x128) (p : Fin 2000) (q : Fin 128) :
    broadcastTo S2000x128 b hB (ix2 p q) = b (ix2 0 q) :=
  broadcastTo_apply b hB (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The transposed 128 × 128 weights are read with the two indices exchanged. -/
private theorem tr_a_apply (w : FVec Ideal S128x128 .bf16) (hT : S128x128.Transposes [1, 0] S128x128) (k q : Fin 128) :
    transpose S128x128 [1, 0] w hT (ix2 k q) = w (ix2 q k) :=
  transpose_apply [1, 0] w hT (ix2 k q) (ix2 q k) (fun b => match b with
    | ⟨0, _⟩ => rfl
    | ⟨1, _⟩ => rfl)

/-- The transposed 128 × 256 weights likewise. -/
private theorem tr_b_apply (w : FVec Ideal S128x256 .bf16) (hT : S128x256.Transposes [1, 0] S256x128) (k : Fin 256) (q : Fin 128) :
    transpose S256x128 [1, 0] w hT (ix2 k q) = w (ix2 q k) :=
  transpose_apply [1, 0] w hT (ix2 k q) (ix2 q k) (fun b => match b with
    | ⟨0, _⟩ => rfl
    | ⟨1, _⟩ => rfl)

/-- The join of two blocks along the columns is read left or right of column 128. -/
private theorem cat_apply (xA xXv : FVec Ideal S2000x128 .f32) (hC : Shape.Concatenates [S2000x128, S2000x128] S2000x256 1)
    (p : Fin 2000) (k : Fin 256) :
    concatenate S2000x256 1 [⟨S2000x128, xA⟩, ⟨S2000x128, xXv⟩] hC (ix2 p k) = Cert.Spec.cat (n := 2000) xA xXv p k := by
  unfold Cert.Spec.cat
  by_cases h : k.val < 128
  · rw [dif_pos h]
    exact concatenate_pair_apply_left (1 : Fin S2000x256.rank) xA xXv hC (ix2 p k) rfl (ix2 p ⟨k.val, h⟩) (fun b => match b with
      | ⟨0, _⟩ => rfl
      | ⟨1, _⟩ => rfl)
  · rw [dif_neg h]
    have hk := k.isLt
    exact concatenate_pair_apply_right (1 : Fin S2000x256.rank) xA xXv hC (ix2 p k) rfl rfl (ix2 p ⟨k.val - 128, by omega⟩)
      (fun b hb => match b, hb with
        | ⟨0, _⟩, _ => rfl
        | ⟨1, _⟩, hb => absurd rfl hb)
      (by show (k.val - 128) + 128 = k.val; omega)

/-- The first linear layer: `x · WXᵀ + bX`. -/
private theorem xX_layer (x : FVec Ideal S2000x128 .f32) (WX : FVec Ideal S128x128 .f32) (bX : FVec Ideal S1x128 .f32)
    (hb : FTy.bits .bf16 < FTy.bits .f32) (hT : S128x128.Transposes [1, 0] S128x128) (hB : S1x128.Broadcasts S2000x128) :
    addf (matmul dot_S2000x128_S128x128_S2000x128_1_0_0_1_n_n none (truncf .bf16 x hb) (transpose S128x128 [1, 0] (truncf .bf16 WX hb) hT)
        (constant (F := Ideal) S2000x128 .f32 0x00000000#32)) (broadcastTo S2000x128 bX hB)
      = Cert.Spec.xX (n := 2000) x WX bX := by
  funext i
  obtain ⟨p, q, rfl⟩ : ∃ (p : Fin 2000) (q : Fin 128), i = ix2 p q := ⟨i 0, i 1, eq_ix2 i⟩
  refine (addf_apply _ _ _).trans ?_
  rw [mm_a_apply, bcast_row_apply]
  show _ = (∑ k : Fin 128, x (ix2 p k) * WX (ix2 q k)) + bX (ix2 0 q)
  refine congrArg (· + bX (ix2 0 q)) (Finset.sum_congr rfl fun k _ => ?_)
  rw [tr_a_apply]
  rfl

/-- The second layer: the join times `Wᵀ`, plus the bias and both residuals, clipped below at zero. -/
private theorem hid_layer (xA xXv : FVec Ideal S2000x128 .f32) (W : FVec Ideal S128x256 .f32) (bW : FVec Ideal S1x128 .f32)
    (hb : FTy.bits .bf16 < FTy.bits .f32) (hT : S128x256.Transposes [1, 0] S256x128) (hB : S1x128.Broadcasts S2000x128)
    (hC : Shape.Concatenates [S2000x128, S2000x128] S2000x256 1) :
    maximumf (addf (addf (addf (matmul dot_S2000x256_S256x128_S2000x128_1_0_0_1_n_n none
        (truncf .bf16 (concatenate S2000x256 1 [⟨S2000x128, xA⟩, ⟨S2000x128, xXv⟩] hC) hb)
        (transpose S256x128 [1, 0] (truncf .bf16 W hb) hT) (constant (F := Ideal) S2000x128 .f32 0x00000000#32))
        (broadcastTo S2000x128 bW hB)) xA) xXv) (broadcast S2000x128 (Scalar.ofBits (F := Ideal) .f32 0x00000000#32))
      = Cert.Spec.hid (n := 2000) xA xXv W bW := by
  funext i
  obtain ⟨p, q, rfl⟩ : ∃ (p : Fin 2000) (q : Fin 128), i = ix2 p q := ⟨i 0, i 1, eq_ix2 i⟩
  refine (maximumf_apply _ _ _).trans ?_
  rw [addf_apply, addf_apply, addf_apply, mm_b_apply, bcast_row_apply, broadcast_apply]
  show _ = max ((((∑ k : Fin 256, Cert.Spec.cat (n := 2000) xA xXv p k * W (ix2 q k)) + bW (ix2 0 q)) + xA (ix2 p q))
    + xXv (ix2 p q)) Cert.Spec.zero32
  refine congrArg (fun t => max (((t + bW (ix2 0 q)) + xA (ix2 p q)) + xXv (ix2 p q)) Cert.Spec.zero32)
    (Finset.sum_congr rfl fun k _ => ?_)
  rw [tr_b_apply, truncf_apply, truncf_apply, cat_apply]

/-- The third layer: `h · W1ᵀ + b1`, clipped below at zero. -/
private theorem act_layer (h : FVec Ideal S2000x128 .f32) (W1 : FVec Ideal S128x128 .f32) (b1 : FVec Ideal S1x128 .f32)
    (hb : FTy.bits .bf16 < FTy.bits .f32) (hT : S128x128.Transposes [1, 0] S128x128) (hB : S1x128.Broadcasts S2000x128) :
    maximumf (addf (matmul dot_S2000x128_S128x128_S2000x128_1_0_0_1_n_n none (truncf .bf16 h hb) (transpose S128x128 [1, 0] (truncf .bf16 W1 hb) hT)
        (constant (F := Ideal) S2000x128 .f32 0x00000000#32)) (broadcastTo S2000x128 b1 hB))
        (broadcast S2000x128 (Scalar.ofBits (F := Ideal) .f32 0x00000000#32))
      = Cert.Spec.act (n := 2000) h W1 b1 := by
  funext i
  obtain ⟨p, q, rfl⟩ : ∃ (p : Fin 2000) (q : Fin 128), i = ix2 p q := ⟨i 0, i 1, eq_ix2 i⟩
  refine (maximumf_apply _ _ _).trans ?_
  rw [addf_apply, mm_a_apply, bcast_row_apply, broadcast_apply]
  show _ = max ((∑ k : Fin 128, h (ix2 p k) * W1 (ix2 q k)) + b1 (ix2 0 q)) Cert.Spec.zero32
  refine congrArg (fun t => max (t + b1 (ix2 0 q)) Cert.Spec.zero32) (Finset.sum_congr rfl fun k _ => ?_)
  rw [tr_a_apply]
  rfl

/-- The body's activations block is `Spec.H1` on 2000 rows of the loaded blocks. -/
theorem pay_h1 (x xA : Vec Ideal S2000x128 .f32) (WX : Vec Ideal S128x128 .f32) (bX : Vec Ideal S1x128 .f32)
    (W : Vec Ideal S128x256 .f32) (bW : Vec Ideal S1x128 .f32) (W1 : Vec Ideal S128x128 .f32) (b1 : Vec Ideal S1x128 .f32) :
    k0_pay1 (F := Ideal) (k0_pay6 x xA WX bX W bW W1) (k0_pay7 b1) = Cert.Spec.H1 (n := 2000) x xA WX bX W bW W1 b1 := by
  have e1 := xX_layer x WX bX bitsLt_bf16_f32 transposes_S128x128_p1_0_S128x128 broadcasts_S1x128_S2000x128
  have e2 := hid_layer xA (Cert.Spec.xX (n := 2000) x WX bX) W bW bitsLt_bf16_f32 transposes_S128x256_p1_0_S256x128
    broadcasts_S1x128_S2000x128 concatenates_S2000x128_S2000x128_S2000x256_d1
  have e3 := act_layer (Cert.Spec.hid (n := 2000) xA (Cert.Spec.xX (n := 2000) x WX bX) W bW) W1 b1 bitsLt_bf16_f32
    transposes_S128x128_p1_0_S128x128 broadcasts_S1x128_S2000x128
  unfold Cert.Spec.H1
  rw [← e3, ← e2, ← e1]
  unfold k0_pay1 k0_pay7 k0_pay6
  simp only [shapeCast_self]
  rw [shapeCast_self xA, shapeCast_self bX]

/-- A sum over the rows, stored as a one-row block, is read at a column as the sum over the rows of that column. -/
private theorem rowsum_apply (H : FVec Ideal S2000x128 .f32) (hR : S2000x128.Reduces [0] S128) (hφ : FKind.Formats .f32)
    (hacc : (0x00000000#32 : BitVec (FTy.bits .f32)) = FKind.add.neutral .f32 hφ) (hS : S128.ShapeCasts S1x128)
    (z : Fin 1) (q : Fin 128) :
    shapeCast S1x128 (multiReduction (F := Ideal) .add [0] S128 H 0x00000000#32 hR hφ hacc) hS (ix2 z q)
      = ∑ r : Fin 2000, H (ix2 r q) := by
  refine (shapeCast_addUnit_apply ![128] _ hS (ix2 z q)).trans ?_
  have ei : (fun a : Fin 1 => (ix2 z q) a.succ) = ix1 q := funext fun a => match a with | ⟨0, _⟩ => rfl
  refine (congrArg _ ei).trans ?_
  refine (Ideal.multiReduction_add_single H _ hR hφ hacc (ix1 q)).trans ?_
  refine Finset.sum_congr rfl fun r _ => congrArg H (funext fun a => Fin.ext ?_)
  match a with
  | ⟨0, _⟩ => rfl
  | ⟨1, _⟩ => rfl

/-- The running sum's update: what was there plus the block's column sums. -/
theorem pay_sum (v33 : FVec Ideal S2000x128 .f32) (v35 : FVec Ideal S1x128 .f32) (acc : Vec Ideal S1x128 .f32) :
    k0_pay2 (F := Ideal) v33 v35 acc = fun i => acc i + ∑ r : Fin 2000, k0_pay1 (F := Ideal) v33 v35 (ix2 r (i 1)) := by
  funext i
  obtain ⟨z, q, rfl⟩ : ∃ (z : Fin 1) (q : Fin 128), i = ix2 z q := ⟨i 0, i 1, eq_ix2 i⟩
  unfold k0_pay2
  refine (addf_apply _ _ _).trans ?_
  rw [shapeCast_self acc]
  exact congrArg (acc (ix2 z q) + ·) (rowsum_apply (k0_pay1 (F := Ideal) v33 v35) _ _ _ _ z q)

/-- The running sum of squares' update: what was there plus the block's column sums of squares. -/
theorem pay_sumsq (v33 : FVec Ideal S2000x128 .f32) (v35 : FVec Ideal S1x128 .f32) (acc : Vec Ideal S1x128 .f32) :
    k0_pay3 (F := Ideal) v33 v35 acc
      = fun i => acc i + ∑ r : Fin 2000, k0_pay1 (F := Ideal) v33 v35 (ix2 r (i 1)) * k0_pay1 (F := Ideal) v33 v35 (ix2 r (i 1)) := by
  funext i
  obtain ⟨z, q, rfl⟩ : ∃ (z : Fin 1) (q : Fin 128), i = ix2 z q := ⟨i 0, i 1, eq_ix2 i⟩
  unfold k0_pay3
  refine (addf_apply _ _ _).trans ?_
  rw [shapeCast_self acc]
  exact congrArg (acc (ix2 z q) + ·)
    (rowsum_apply (mulf (k0_pay1 (F := Ideal) v33 v35) (k0_pay1 (F := Ideal) v33 v35)) _ _ _ _ z q)

/-- The reset value of both running rows. -/
theorem pay_reset_sum : k0_pay4 (F := Ideal) = fun _ => Cert.Spec.zero32 := by
  unfold k0_pay4
  rfl
theorem pay_reset_sumsq : k0_pay5 (F := Ideal) = fun _ => Cert.Spec.zero32 := by
  unfold k0_pay5
  rfl

end Cert.KernelIdeal.Val

end
-- ==== Proof.Region0.lean ====
/-
  The first kernel region, point by point. Grid point `t` (of 50) reads rows `2000 t … 2000 t + 1999` of the node
  features and of the aggregated features and the whole weight matrices, writes the same rows of the activations
  `H1`, and adds the block's column sums and column sums of squares into two running rows that it resets at `t = 0`.
-/
import proofs.«414882_j86947317941135_1_alg».proof.Proof.Gen.KernelIdeal.Frame
import proofs.«414882_j86947317941135_1_alg».proof.Proof.Spec
import proofs.«414882_j86947317941135_1_alg».proof.Proof.Pay0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem Idealize.ShloMosaic.Pipeline
open Cert.Spec (Mat NR)
open Idealize.ShloMosaic.Tactic

section Pieces
variable {F : FTy → Type} [FloatOps F]

/-- The zero offset of a whole-block access. -/
private theorem hz2 : (![0, 0] : Fin 2 → Nat) = fun _ => 0 := funext fun a => by fin_cases a <;> rfl

/-- At the first point the activations' staging block is left at the body's value on the loaded blocks. -/
private theorem pc_A_8 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x256 .f32) (h5 : a5.IsWhole) (a6 : Memref sig .tc .vmem S1x128 .f32) (h6 : a6.IsWhole) (a7 : Memref sig .tc .vmem S128x128 .f32) (h7 : a7.IsWhole) (a8 : Memref sig .tc .vmem S1x128 .f32) (h8 : a8.IsWhole) (a9 : Memref sig .tc .vmem S2000x128 .f32) (h9 : a9.IsWhole) (a10 : Memref sig .tc .vmem S1x128 .f32) (h10 : a10.IsWhole) (a11 : Memref sig .tc .vmem S1x128 .f32) (h11 : a11.IsWhole) (hc : cond0_0 i) (x0 : Vec F S2000x128 .f32) (x1 : Vec F S2000x128 .f32) (x2 : Vec F S128x128 .f32) (x3 : Vec F S1x128 .f32) (x4 : Vec F S128x256 .f32) (x5 : Vec F S1x128 .f32) (x6 : Vec F S128x128 .f32) (x7 : Vec F S1x128 .f32) :
    out0_A_8 c i a1 h1 a2 h2 a3 h3 a4 h4 a5 h5 a6 h6 a7 h7 a8 h8 a9 h9 a10 h10 a11 h11 hc x0 x1 x2 x3 x4 x5 x6 x7 = k0_pay1 (k0_pay6 x0 x1 x2 x3 x4 x5 x6) (k0_pay7 x7) := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h10.read_unread, h11.read_unread, View.ld_unit_zero (S := S2000x128) hz2, View.ld_unit_zero (S := S128x128) hz2, View.ld_unit_zero (S := S1x128) hz2, View.ld_unit_zero (S := S128x256) hz2]

/-- At the first point the running sum is reset and then updated: the update on the reset value. -/
private theorem pc_A_9 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x256 .f32) (h5 : a5.IsWhole) (a6 : Memref sig .tc .vmem S1x128 .f32) (h6 : a6.IsWhole) (a7 : Memref sig .tc .vmem S128x128 .f32) (h7 : a7.IsWhole) (a8 : Memref sig .tc .vmem S1x128 .f32) (h8 : a8.IsWhole) (a9 : Memref sig .tc .vmem S2000x128 .f32) (h9 : a9.IsWhole) (a10 : Memref sig .tc .vmem S1x128 .f32) (h10 : a10.IsWhole) (a11 : Memref sig .tc .vmem S1x128 .f32) (h11 : a11.IsWhole) (hc : cond0_0 i) (x0 : Vec F S2000x128 .f32) (x1 : Vec F S2000x128 .f32) (x2 : Vec F S128x128 .f32) (x3 : Vec F S1x128 .f32) (x4 : Vec F S128x256 .f32) (x5 : Vec F S1x128 .f32) (x6 : Vec F S128x128 .f32) (x7 : Vec F S1x128 .f32) :
    out0_A_9 c i a1 h1 a2 h2 a3 h3 a4 h4 a5 h5 a6 h6 a7 h7 a8 h8 a9 h9 a10 h10 a11 h11 hc x0 x1 x2 x3 x4 x5 x6 x7 = k0_pay2 (k0_pay6 x0 x1 x2 x3 x4 x5 x6) (k0_pay7 x7) (k0_pay4 (F := F)) := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, h6.read_unread, h7.read_unread, h8.read_unread, h10.read_unread, h11.read_unread, View.ld_unit_zero (S := S2000x128) hz2, View.ld_unit_zero (S := S128x128) hz2, View.ld_unit_zero (S := S1x128) hz2, View.ld_unit_zero (S := S128x256) hz2]

/-- At the first point the running sum of squares is reset and then updated: the update on the reset value. -/
private theorem pc_A_10 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x256 .f32) (h5 : a5.IsWhole) (a6 : Memref sig .tc .vmem S1x128 .f32) (h6 : a6.IsWhole) (a7 : Memref sig .tc .vmem S128x128 .f32) (h7 : a7.IsWhole) (a8 : Memref sig .tc .vmem S1x128 .f32) (h8 : a8.IsWhole) (a9 : Memref sig .tc .vmem S2000x128 .f32) (h9 : a9.IsWhole) (a10 : Memref sig .tc .vmem S1x128 .f32) (h10 : a10.IsWhole) (a11 : Memref sig .tc .vmem S1x128 .f32) (h11 : a11.IsWhole) (hc : cond0_0 i) (x0 : Vec F S2000x128 .f32) (x1 : Vec F S2000x128 .f32) (x2 : Vec F S128x128 .f32) (x3 : Vec F S1x128 .f32) (x4 : Vec F S128x256 .f32) (x5 : Vec F S1x128 .f32) (x6 : Vec F S128x128 .f32) (x7 : Vec F S1x128 .f32) :
    out0_A_10 c i a1 h1 a2 h2 a3 h3 a4 h4 a5 h5 a6 h6 a7 h7 a8 h8 a9 h9 a10 h10 a11 h11 hc x0 x1 x2 x3 x4 x5 x6 x7 = k0_pay3 (k0_pay6 x0 x1 x2 x3 x4 x5 x6) (k0_pay7 x7) (k0_pay5 (F := F)) := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, h6.read_unread, h7.read_unread, h8.read_unread, h10.read_unread, h11.read_unread, View.ld_unit_zero (S := S2000x128) hz2, View.ld_unit_zero (S := S128x128) hz2, View.ld_unit_zero (S := S1x128) hz2, View.ld_unit_zero (S := S128x256) hz2]

/-- At a later point the activations' staging block is left at the body's value on the loaded blocks. -/
private theorem pc_B_8 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x256 .f32) (h5 : a5.IsWhole) (a6 : Memref sig .tc .vmem S1x128 .f32) (h6 : a6.IsWhole) (a7 : Memref sig .tc .vmem S128x128 .f32) (h7 : a7.IsWhole) (a8 : Memref sig .tc .vmem S1x128 .f32) (h8 : a8.IsWhole) (a9 : Memref sig .tc .vmem S2000x128 .f32) (h9 : a9.IsWhole) (a10 : Memref sig .tc .vmem S1x128 .f32) (h10 : a10.IsWhole) (a11 : Memref sig .tc .vmem S1x128 .f32) (h11 : a11.IsWhole) (hc : ¬cond0_0 i) (x0 : Vec F S2000x128 .f32) (x1 : Vec F S2000x128 .f32) (x2 : Vec F S128x128 .f32) (x3 : Vec F S1x128 .f32) (x4 : Vec F S128x256 .f32) (x5 : Vec F S1x128 .f32) (x6 : Vec F S128x128 .f32) (x7 : Vec F S1x128 .f32) (xo9 : Vec F S1x128 .f32) (xo10 : Vec F S1x128 .f32) :
    out0_B_8 c i a1 h1 a2 h2 a3 h3 a4 h4 a5 h5 a6 h6 a7 h7 a8 h8 a9 h9 a10 h10 a11 h11 hc x0 x1 x2 x3 x4 x5 x6 x7 xo9 xo10 = k0_pay1 (k0_pay6 x0 x1 x2 x3 x4 x5 x6) (k0_pay7 x7) := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 x6 x7 xo9 xo10)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h10.read_unread, h11.read_unread, View.ld_unit_zero (S := S2000x128) hz2, View.ld_unit_zero (S := S128x128) hz2, View.ld_unit_zero (S := S1x128) hz2, View.ld_unit_zero (S := S128x256) hz2]

/-- At a later point the running sum is updated on what its block held. -/
private theorem pc_B_9 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x256 .f32) (h5 : a5.IsWhole) (a6 : Memref sig .tc .vmem S1x128 .f32) (h6 : a6.IsWhole) (a7 : Memref sig .tc .vmem S128x128 .f32) (h7 : a7.IsWhole) (a8 : Memref sig .tc .vmem S1x128 .f32) (h8 : a8.IsWhole) (a9 : Memref sig .tc .vmem S2000x128 .f32) (h9 : a9.IsWhole) (a10 : Memref sig .tc .vmem S1x128 .f32) (h10 : a10.IsWhole) (a11 : Memref sig .tc .vmem S1x128 .f32) (h11 : a11.IsWhole) (hc : ¬cond0_0 i) (x0 : Vec F S2000x128 .f32) (x1 : Vec F S2000x128 .f32) (x2 : Vec F S128x128 .f32) (x3 : Vec F S1x128 .f32) (x4 : Vec F S128x256 .f32) (x5 : Vec F S1x128 .f32) (x6 : Vec F S128x128 .f32) (x7 : Vec F S1x128 .f32) (xo9 : Vec F S1x128 .f32) (xo10 : Vec F S1x128 .f32) :
    out0_B_9 c i a1 h1 a2 h2 a3 h3 a4 h4 a5 h5 a6 h6 a7 h7 a8 h8 a9 h9 a10 h10 a11 h11 hc x0 x1 x2 x3 x4 x5 x6 x7 xo9 xo10 = k0_pay2 (k0_pay6 x0 x1 x2 x3 x4 x5 x6) (k0_pay7 x7) xo9 := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 x7 xo9 xo10)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h10.read_unread, h11.read_unread, View.ld_unit_zero (S := S2000x128) hz2, View.ld_unit_zero (S := S128x128) hz2, View.ld_unit_zero (S := S1x128) hz2, View.ld_unit_zero (S := S128x256) hz2]

/-- At a later point the running sum of squares is updated on what its block held. -/
private theorem pc_B_10 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x256 .f32) (h5 : a5.IsWhole) (a6 : Memref sig .tc .vmem S1x128 .f32) (h6 : a6.IsWhole) (a7 : Memref sig .tc .vmem S128x128 .f32) (h7 : a7.IsWhole) (a8 : Memref sig .tc .vmem S1x128 .f32) (h8 : a8.IsWhole) (a9 : Memref sig .tc .vmem S2000x128 .f32) (h9 : a9.IsWhole) (a10 : Memref sig .tc .vmem S1x128 .f32) (h10 : a10.IsWhole) (a11 : Memref sig .tc .vmem S1x128 .f32) (h11 : a11.IsWhole) (hc : ¬cond0_0 i) (x0 : Vec F S2000x128 .f32) (x1 : Vec F S2000x128 .f32) (x2 : Vec F S128x128 .f32) (x3 : Vec F S1x128 .f32) (x4 : Vec F S128x256 .f32) (x5 : Vec F S1x128 .f32) (x6 : Vec F S128x128 .f32) (x7 : Vec F S1x128 .f32) (xo9 : Vec F S1x128 .f32) (xo10 : Vec F S1x128 .f32) :
    out0_B_10 c i a1 h1 a2 h2 a3 h3 a4 h4 a5 h5 a6 h6 a7 h7 a8 h8 a9 h9 a10 h10 a11 h11 hc x0 x1 x2 x3 x4 x5 x6 x7 xo9 xo10 = k0_pay3 (k0_pay6 x0 x1 x2 x3 x4 x5 x6) (k0_pay7 x7) xo10 := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 x7 xo9 xo10)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h10.read_unread, h11.read_unread, View.ld_unit_zero (S := S2000x128) hz2, View.ld_unit_zero (S := S128x128) hz2, View.ld_unit_zero (S := S1x128) hz2, View.ld_unit_zero (S := S128x256) hz2]

end Pieces

variable (V : (c : Dev nD) → (b : Ref sig .tc) → Buf (Elt Ideal) ((c : Thread nD τ).loc b))

/-- The activations as a function of the arrays the region finds. -/
abbrev H1V (c : Dev nD) : Mat NR 128 :=
  Cert.Spec.H1 (V c main_arg0) (V c main_v7) (V c main_arg5) (V c main_v8) (V c main_arg7) (V c main_v9) (V c main_arg9) (V c main_v10)

/-- Column sums of the 2000 rows of block `t`. -/
def blkSum (a : Mat NR 128) (t : ℕ) (ht : t < 50) : Mat 1 128 :=
  fun i => ∑ r : Fin 2000, a (ix2 (⟨2000 * t + r.val, by have := r.isLt; show 2000 * t + r.val < 100000; omega⟩ : Fin 100000) (i 1))
/-- Column sums of squares of the 2000 rows of block `t`. -/
def blkSumSq (a : Mat NR 128) (t : ℕ) (ht : t < 50) : Mat 1 128 :=
  fun i => ∑ r : Fin 2000, a (ix2 (⟨2000 * t + r.val, by have := r.isLt; show 2000 * t + r.val < 100000; omega⟩ : Fin 100000) (i 1)) * a (ix2 (⟨2000 * t + r.val, by have := r.isLt; show 2000 * t + r.val < 100000; omega⟩ : Fin 100000) (i 1))

theorem N0 : cfg0.N = 50 := rfl

/-- Row `r` of block `t` is row `2000 t + r` of the array. -/
private abbrev rowAt (t : Fin cfg0.N) (r : Fin 2000) : Fin 100000 :=
  ⟨2000 * t.val + r.val, by have := r.isLt; have := lt_of_lt_of_eq t.isLt N0; omega⟩

/-- The row windows' block index at point `t` is `(t, 0)`. -/
private theorem idx0 : ∀ t : Fin cfg0.N, win0_0.index t 0 = t.val ∧ win0_0.index t 1 = 0 :=
  (by decide +kernel : ∀ t : Fin grid0.N, win0_0.index t 0 = t.val ∧ win0_0.index t 1 = 0)
private theorem idx1 : ∀ t : Fin cfg0.N, win0_1.index t 0 = t.val ∧ win0_1.index t 1 = 0 :=
  (by decide +kernel : ∀ t : Fin grid0.N, win0_1.index t 0 = t.val ∧ win0_1.index t 1 = 0)
private theorem idx8 : ∀ t : Fin cfg0.N, win0_8.index t 0 = t.val ∧ win0_8.index t 1 = 0 :=
  (by decide +kernel : ∀ t : Fin grid0.N, win0_8.index t 0 = t.val ∧ win0_8.index t 1 = 0)

/-- The input blocks at point `t`, each at its literal type. -/
private abbrev bk0 (c : Dev nD) (t : Fin cfg0.N) : Vec Ideal S2000x128 .f32 := iblk0 (F := Ideal) V c 0 t
private abbrev bk1 (c : Dev nD) (t : Fin cfg0.N) : Vec Ideal S2000x128 .f32 := iblk0 (F := Ideal) V c 1 t
private abbrev bk2 (c : Dev nD) (t : Fin cfg0.N) : Vec Ideal S128x128 .f32 := iblk0 (F := Ideal) V c 2 t
private abbrev bk3 (c : Dev nD) (t : Fin cfg0.N) : Vec Ideal S1x128 .f32 := iblk0 (F := Ideal) V c 3 t
private abbrev bk4 (c : Dev nD) (t : Fin cfg0.N) : Vec Ideal S128x256 .f32 := iblk0 (F := Ideal) V c 4 t
private abbrev bk5 (c : Dev nD) (t : Fin cfg0.N) : Vec Ideal S1x128 .f32 := iblk0 (F := Ideal) V c 5 t
private abbrev bk6 (c : Dev nD) (t : Fin cfg0.N) : Vec Ideal S128x128 .f32 := iblk0 (F := Ideal) V c 6 t
private abbrev bk7 (c : Dev nD) (t : Fin cfg0.N) : Vec Ideal S1x128 .f32 := iblk0 (F := Ideal) V c 7 t

private theorem bk0_eq (c : Dev nD) (t : Fin cfg0.N) :
    bk0 V c t = fun j => (V c main_arg0 : Mat NR 128) (ix2 (rowAt t (j 0)) (j 1)) := by
  funext j
  unfold bk0 iblk0
  rw [View.read_apply]
  show V c main_arg0 _ = V c main_arg0 _
  congr 1
  funext a
  apply Fin.ext
  match a with
  | ⟨0, _⟩ => show win0_0.index t 0 * 2000 + 1 * (j 0).val = 2000 * t.val + (j 0).val; rw [(idx0 t).1]; omega
  | ⟨1, _⟩ => show win0_0.index t 1 * 128 + 1 * (j 1).val = (j 1).val; rw [(idx0 t).2]; omega

private theorem bk1_eq (c : Dev nD) (t : Fin cfg0.N) :
    bk1 V c t = fun j => (V c main_v7 : Mat NR 128) (ix2 (rowAt t (j 0)) (j 1)) := by
  funext j
  unfold bk1 iblk0
  rw [View.read_apply]
  show V c main_v7 _ = V c main_v7 _
  congr 1
  funext a
  apply Fin.ext
  match a with
  | ⟨0, _⟩ => show win0_1.index t 0 * 2000 + 1 * (j 0).val = 2000 * t.val + (j 0).val; rw [(idx1 t).1]; omega
  | ⟨1, _⟩ => show win0_1.index t 1 * 128 + 1 * (j 1).val = (j 1).val; rw [(idx1 t).2]; omega

private theorem bk2_eq (c : Dev nD) (t : Fin cfg0.N) : bk2 V c t = (V c main_arg5 : Mat 128 128) := by
  funext j
  unfold bk2 iblk0
  rw [View.read_apply]
  show V c main_arg5 _ = V c main_arg5 _
  congr 1
  funext a
  apply Fin.ext
  match a with
  | ⟨0, _⟩ => show win0_2.index t 0 * 128 + 1 * (j 0).val = (j 0).val; rw [show win0_2.index t 0 = 0 from rfl]; omega
  | ⟨1, _⟩ => show win0_2.index t 1 * 128 + 1 * (j 1).val = (j 1).val; rw [show win0_2.index t 1 = 0 from rfl]; omega

private theorem bk3_eq (c : Dev nD) (t : Fin cfg0.N) : bk3 V c t = (V c main_v8 : Mat 1 128) := by
  funext j
  unfold bk3 iblk0
  rw [View.read_apply]
  show V c main_v8 _ = V c main_v8 _
  congr 1
  funext a
  apply Fin.ext
  match a with
  | ⟨0, _⟩ => show win0_3.index t 0 * 1 + 1 * (j 0).val = (j 0).val; rw [show win0_3.index t 0 = 0 from rfl]; omega
  | ⟨1, _⟩ => show win0_3.index t 1 * 128 + 1 * (j 1).val = (j 1).val; rw [show win0_3.index t 1 = 0 from rfl]; omega

private theorem bk4_eq (c : Dev nD) (t : Fin cfg0.N) : bk4 V c t = (V c main_arg7 : Mat 128 256) := by
  funext j
  unfold bk4 iblk0
  rw [View.read_apply]
  show V c main_arg7 _ = V c main_arg7 _
  congr 1
  funext a
  apply Fin.ext
  match a with
  | ⟨0, _⟩ => show win0_4.index t 0 * 128 + 1 * (j 0).val = (j 0).val; rw [show win0_4.index t 0 = 0 from rfl]; omega
  | ⟨1, _⟩ => show win0_4.index t 1 * 256 + 1 * (j 1).val = (j 1).val; rw [show win0_4.index t 1 = 0 from rfl]; omega

private theorem bk5_eq (c : Dev nD) (t : Fin cfg0.N) : bk5 V c t = (V c main_v9 : Mat 1 128) := by
  funext j
  unfold bk5 iblk0
  rw [View.read_apply]
  show V c main_v9 _ = V c main_v9 _
  congr 1
  funext a
  apply Fin.ext
  match a with
  | ⟨0, _⟩ => show win0_5.index t 0 * 1 + 1 * (j 0).val = (j 0).val; rw [show win0_5.index t 0 = 0 from rfl]; omega
  | ⟨1, _⟩ => show win0_5.index t 1 * 128 + 1 * (j 1).val = (j 1).val; rw [show win0_5.index t 1 = 0 from rfl]; omega

private theorem bk6_eq (c : Dev nD) (t : Fin cfg0.N) : bk6 V c t = (V c main_arg9 : Mat 128 128) := by
  funext j
  unfold bk6 iblk0
  rw [View.read_apply]
  show V c main_arg9 _ = V c main_arg9 _
  congr 1
  funext a
  apply Fin.ext
  match a with
  | ⟨0, _⟩ => show win0_6.index t 0 * 128 + 1 * (j 0).val = (j 0).val; rw [show win0_6.index t 0 = 0 from rfl]; omega
  | ⟨1, _⟩ => show win0_6.index t 1 * 128 + 1 * (j 1).val = (j 1).val; rw [show win0_6.index t 1 = 0 from rfl]; omega

private theorem bk7_eq (c : Dev nD) (t : Fin cfg0.N) : bk7 V c t = (V c main_v10 : Mat 1 128) := by
  funext j
  unfold bk7 iblk0
  rw [View.read_apply]
  show V c main_v10 _ = V c main_v10 _
  congr 1
  funext a
  apply Fin.ext
  match a with
  | ⟨0, _⟩ => show win0_7.index t 0 * 1 + 1 * (j 0).val = (j 0).val; rw [show win0_7.index t 0 = 0 from rfl]; omega
  | ⟨1, _⟩ => show win0_7.index t 1 * 128 + 1 * (j 1).val = (j 1).val; rw [show win0_7.index t 1 = 0 from rfl]; omega

/-- Block `t` of an array of activations, read through the output window: rows `2000 t …`. -/
private theorem read8 (t : Fin cfg0.N) (G : Mat NR 128) :
    ((cfg0.win 8).blk t).view.read (Elt Ideal) G = fun j => G (ix2 (rowAt t (j 0)) (j 1)) := by
  funext j
  rw [View.read_apply]
  show G _ = G _
  congr 1
  funext a
  apply Fin.ext
  match a with
  | ⟨0, _⟩ => show win0_8.index t 0 * 2000 + 1 * (j 0).val = 2000 * t.val + (j 0).val; rw [(idx8 t).1]; omega
  | ⟨1, _⟩ => show win0_8.index t 1 * 128 + 1 * (j 1).val = (j 1).val; rw [(idx8 t).2]; omega

/-- A row of the activations depends on that row of the two row inputs only. -/
private theorem H1_rows (x xA : Mat NR 128) (WX : Mat 128 128) (bX : Mat 1 128) (W : Mat 128 256) (bW : Mat 1 128)
    (W1 : Mat 128 128) (b1 : Mat 1 128) (t : Fin cfg0.N) :
    Cert.Spec.H1 (n := 2000) (fun j => x (ix2 (rowAt t (j 0)) (j 1))) (fun j => xA (ix2 (rowAt t (j 0)) (j 1))) WX bX W bW W1 b1
      = fun j => Cert.Spec.H1 (n := NR) x xA WX bX W bW W1 b1 (ix2 (rowAt t (j 0)) (j 1)) := by
  funext j
  simp only [Cert.Spec.H1, Cert.Spec.act, Cert.Spec.hid, Cert.Spec.xX, Cert.Spec.cat]

/-- What the body computes from the blocks at point `t`: rows `2000 t …` of the activations. -/
private theorem blkH1 (c : Dev nD) (t : Fin cfg0.N) :
    k0_pay1 (F := Ideal) (k0_pay6 (bk0 V c t) (bk1 V c t) (bk2 V c t) (bk3 V c t) (bk4 V c t) (bk5 V c t) (bk6 V c t)) (k0_pay7 (bk7 V c t)) = fun j => H1V V c (ix2 (rowAt t (j 0)) (j 1)) := by
  rw [pay_h1, bk0_eq, bk1_eq, bk2_eq, bk3_eq, bk4_eq, bk5_eq, bk6_eq, bk7_eq]
  exact H1_rows _ _ _ _ _ _ _ _ t

/-- The activations' staging block after point `t`, as the body's value on the blocks. -/
private theorem pt8 (c : Dev nD) (t : Fin cfg0.N) :
    (outsAt0 (F := Ideal) V c t.val t.isLt).1 = k0_pay1 (F := Ideal) (k0_pay6 (bk0 V c t) (bk1 V c t) (bk2 V c t) (bk3 V c t) (bk4 V c t) (bk5 V c t) (bk6 V c t)) (k0_pay7 (bk7 V c t)) := by
  by_cases h0 : t.val % 50 = 0
  · rw [outsAt0_A V c t h0]
    dsimp only
    exact pc_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk0 V c 0 t) (iblk0 V c 1 t) (iblk0 V c 2 t) (iblk0 V c 3 t) (iblk0 V c 4 t) (iblk0 V c 5 t) (iblk0 V c 6 t) (iblk0 V c 7 t)
  · rw [outsAt0_B V c t h0]
    dsimp only
    exact pc_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.1 (outsAt0 V c (t.val - 1) (Nat.lt_of_le_of_lt (Nat.sub_le _ _) t.isLt)).2.2

/-- What point `t` leaves in the activations' staging block: block `t` of `H1`. -/
theorem pt_h1 (c : Dev nD) (t : Fin cfg0.N) :
    (outsAt0 (F := Ideal) V c t.val t.isLt).1 = ((cfg0.win 8).blk t).view.read (Elt Ideal) (H1V V c) := by
  exact (pt8 V c t).trans ((blkH1 V c t).trans (read8 t (H1V V c)).symm)

/-- The running sum's update at point `t`, on what was there. -/
private theorem upd_sum (c : Dev nD) (t : Fin cfg0.N) (acc : Vec Ideal S1x128 .f32) :
    k0_pay2 (F := Ideal) (k0_pay6 (bk0 V c t) (bk1 V c t) (bk2 V c t) (bk3 V c t) (bk4 V c t) (bk5 V c t) (bk6 V c t)) (k0_pay7 (bk7 V c t)) acc = fun i => acc i + blkSum (H1V V c) t.val t.isLt i := by
  rw [pay_sum, blkH1]
  rfl
/-- The running sum of squares' update at point `t`, on what was there. -/
private theorem upd_sumsq (c : Dev nD) (t : Fin cfg0.N) (acc : Vec Ideal S1x128 .f32) :
    k0_pay3 (F := Ideal) (k0_pay6 (bk0 V c t) (bk1 V c t) (bk2 V c t) (bk3 V c t) (bk4 V c t) (bk5 V c t) (bk6 V c t)) (k0_pay7 (bk7 V c t)) acc = fun i => acc i + blkSumSq (H1V V c) t.val t.isLt i := by
  rw [pay_sumsq, blkH1]
  rfl

/-- The running sum after the first point: zero plus the first block's column sums. -/
theorem pt_sum_zero (c : Dev nD) (h : 0 < cfg0.N) :
    (outsAt0 (F := Ideal) V c 0 h).2.1 = fun i => Cert.Spec.zero32 + blkSum (H1V V c) 0 (by decide) i := by
  rw [outsAt0_A V c ⟨0, h⟩ rfl]
  dsimp only
  refine (pc_A_9 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) (iblk0 V c 7 ⟨0, h⟩)).trans ?_
  refine (upd_sum V c ⟨0, h⟩ (k0_pay4 (F := Ideal))).trans ?_
  rw [pay_reset_sum]
/-- The running sum after a later point: what the point before left plus this block's column sums. -/
theorem pt_sum_succ (c : Dev nD) (n : ℕ) (h : n + 1 < cfg0.N) :
    (outsAt0 (F := Ideal) V c (n + 1) h).2.1
      = fun i => (outsAt0 (F := Ideal) V c n (Nat.lt_of_succ_lt h)).2.1 i + blkSum (H1V V c) (n + 1) h i := by
  have hN : cfg0.N = 50 := N0
  have hB : ¬(⟨n + 1, h⟩ : Fin cfg0.N).val % 50 = 0 := by dsimp only; omega
  rw [outsAt0_B V c ⟨n + 1, h⟩ hB]
  dsimp only
  refine (pc_B_9 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (iblk0 V c 7 ⟨n + 1, h⟩) (outsAt0 V c n (Nat.lt_of_succ_lt h)).2.1 (outsAt0 V c n (Nat.lt_of_succ_lt h)).2.2).trans ?_
  exact upd_sum V c ⟨n + 1, h⟩ (outsAt0 V c n (Nat.lt_of_succ_lt h)).2.1
/-- The running sum of squares after the first point. -/
theorem pt_sumsq_zero (c : Dev nD) (h : 0 < cfg0.N) :
    (outsAt0 (F := Ideal) V c 0 h).2.2 = fun i => Cert.Spec.zero32 + blkSumSq (H1V V c) 0 (by decide) i := by
  rw [outsAt0_A V c ⟨0, h⟩ rfl]
  dsimp only
  refine (pc_A_10 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) (iblk0 V c 7 ⟨0, h⟩)).trans ?_
  refine (upd_sumsq V c ⟨0, h⟩ (k0_pay5 (F := Ideal))).trans ?_
  rw [pay_reset_sumsq]
/-- The running sum of squares after a later point. -/
theorem pt_sumsq_succ (c : Dev nD) (n : ℕ) (h : n + 1 < cfg0.N) :
    (outsAt0 (F := Ideal) V c (n + 1) h).2.2
      = fun i => (outsAt0 (F := Ideal) V c n (Nat.lt_of_succ_lt h)).2.2 i + blkSumSq (H1V V c) (n + 1) h i := by
  have hN : cfg0.N = 50 := N0
  have hB : ¬(⟨n + 1, h⟩ : Fin cfg0.N).val % 50 = 0 := by dsimp only; omega
  rw [outsAt0_B V c ⟨n + 1, h⟩ hB]
  dsimp only
  refine (pc_B_10 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (iblk0 V c 7 ⟨n + 1, h⟩) (outsAt0 V c n (Nat.lt_of_succ_lt h)).2.1 (outsAt0 V c n (Nat.lt_of_succ_lt h)).2.2).trans ?_
  exact upd_sumsq V c ⟨n + 1, h⟩ (outsAt0 V c n (Nat.lt_of_succ_lt h)).2.2

/-- Membership in the activations' block `t`, by coordinates. -/
private theorem mem_blk8 (t : Fin cfg0.N) (i : S100000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v11_0).slice (win0_8.rect t)).set ↔ _
  rw [View.set_slice_whole, Rect.mem_set_unit]
  exact Iff.rfl

/-- The activations' array after the last point is `H1`: the 50 row blocks tile it. -/
theorem arr0_8 (c : Dev nD) : (dat0 (F := Ideal) V c).arrAt 8 cfg0.N = H1V V c := by
  refine (dat0 (F := Ideal) V c).arrAt_eq_of_cover 8 (H1V V c) (fun t _ => ?_) (fun i => ?_)
  · show (cfg0.win 8).cut (grid0.coords t) ((dat0 (F := Ideal) V c).after 8 t) = _
    rw [after0_8]
    exact pt_h1 V c t
  · have hN : cfg0.N = 50 := N0
    have hi0 : (i 0).val < 100000 := (i 0).isLt
    have hi1 : (i 1).val < 128 := (i 1).isLt
    refine ⟨⟨(i 0).val / 2000, by omega⟩, flush0_8 _, ?_⟩
    rw [mem_blk8]
    intro a
    match a with
    | ⟨0, _⟩ =>
      show win0_8.index ⟨(i 0).val / 2000, _⟩ 0 * 2000 ≤ (i 0).val ∧ (i 0).val < win0_8.index ⟨(i 0).val / 2000, _⟩ 0 * 2000 + 2000
      rw [(idx8 _).1]; dsimp only; omega
    | ⟨1, _⟩ =>
      show win0_8.index ⟨(i 0).val / 2000, _⟩ 1 * 128 ≤ (i 1).val ∧ (i 1).val < win0_8.index ⟨(i 0).val / 2000, _⟩ 1 * 128 + 128
      rw [(idx8 _).2]; omega

end Cert.KernelIdeal.Val

end
-- ==== Proof.Accum.lean ====
/-
  The two running rows of the first region, summed up: after the last of the 50 points the first holds every column's
  sum over all 100000 rows of the activations and the second every column's sum of squares, because a row index is
  `2000 t + r` for exactly one block `t < 50` and one `r < 2000`.
-/
import proofs.«414882_j86947317941135_1_alg».proof.Proof.Gen.KernelIdeal.Frame
import proofs.«414882_j86947317941135_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«414882_j86947317941135_1_alg».proof.Proof.Region0
set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem Idealize.ShloMosaic.Pipeline
open Cert.Spec (Mat NR)

variable (V : (c : Dev nD) → (b : Ref sig .tc) → Buf (Elt Ideal) ((c : Thread nD τ).loc b))

/-- A sum over all 100000 rows is the sum, over the 50 blocks, of the sums over each block's 2000 rows: a row index is
    `2000 t + r` for exactly one pair. -/
private theorem sum_rows_blocks {β : Type*} [AddCommMonoid β] (f : Fin 100000 → β) :
    ∑ t : Fin 50, ∑ r : Fin 2000, f ⟨2000 * t.val + r.val, by have := t.isLt; have := r.isLt; omega⟩ = ∑ p : Fin 100000, f p := by
  have e := Equiv.sum_comp (finProdFinEquiv : Fin 50 × Fin 2000 ≃ Fin (50 * 2000)) (f : Fin (50 * 2000) → β)
  rw [Fintype.sum_prod_type] at e
  refine Eq.trans ?_ e
  refine Finset.sum_congr rfl fun t _ => Finset.sum_congr rfl fun r _ => congrArg f (Fin.ext ?_)
  rw [finProdFinEquiv_apply_val]
  show 2000 * t.val + r.val = r.val + 2000 * t.val
  omega

/-- Point `t`'s addend to the running sums: block `t`'s column sums, and nothing past the last block. -/
private def addS (a : Mat NR 128) (t : ℕ) : Mat 1 128 := fun i => if h : t < 50 then blkSum a t h i else 0
/-- Point `t`'s addend to the running sums of squares. -/
private def addQ (a : Mat NR 128) (t : ℕ) : Mat 1 128 := fun i => if h : t < 50 then blkSumSq a t h i else 0

/-- The running sum after point `n`: zero plus the column sums of blocks `0 … n`. -/
private theorem run_sum (c : Dev nD) : ∀ (n : ℕ) (h : n < cfg0.N),
    (outsAt0 (F := Ideal) V c n h).2.1 = fun i => Cert.Spec.zero32 + ∑ t ∈ Finset.range (n + 1), addS (H1V V c) t i
  | 0, h => by
    rw [pt_sum_zero V c h]
    funext i
    rw [Finset.sum_range_one]
    show _ = _ + dite _ _ _
    rw [dif_pos (by decide)]
  | n + 1, h => by
    rw [pt_sum_succ V c n h, run_sum c n (Nat.lt_of_succ_lt h)]
    funext i
    rw [Finset.sum_range_succ _ (n + 1), add_assoc]
    show _ = _ + (_ + dite _ _ _)
    rw [dif_pos (show n + 1 < 50 from h)]

/-- The running sum of squares after point `n`: zero plus the column sums of squares of blocks `0 … n`. -/
private theorem run_sumsq (c : Dev nD) : ∀ (n : ℕ) (h : n < cfg0.N),
    (outsAt0 (F := Ideal) V c n h).2.2 = fun i => Cert.Spec.zero32 + ∑ t ∈ Finset.range (n + 1), addQ (H1V V c) t i
  | 0, h => by
    rw [pt_sumsq_zero V c h]
    funext i
    rw [Finset.sum_range_one]
    show _ = _ + dite _ _ _
    rw [dif_pos (by decide)]
  | n + 1, h => by
    rw [pt_sumsq_succ V c n h, run_sumsq c n (Nat.lt_of_succ_lt h)]
    funext i
    rw [Finset.sum_range_succ _ (n + 1), add_assoc]
    show _ = _ + (_ + dite _ _ _)
    rw [dif_pos (show n + 1 < 50 from h)]

/-- The last point. -/
private abbrev tLast : Fin cfg0.N := ⟨49, by decide⟩

/-- After the last point the running sum is the column sum over all rows. -/
private theorem total_sum (c : Dev nD) :
    (outsAt0 (F := Ideal) V c 49 (by decide)).2.1 = Cert.Spec.colsum (H1V V c) := by
  rw [run_sum V c 49 (by decide)]
  funext i
  rw [show Cert.Spec.zero32 = 0 from Ideal.ofBits_zero_f32, zero_add, Finset.sum_range (fun t => addS (H1V V c) t i)]
  refine Eq.trans ?_ (sum_rows_blocks fun p => H1V V c (ix2 p (i 1)))
  refine Finset.sum_congr rfl fun t _ => ?_
  show dite _ _ _ = _
  rw [dif_pos t.isLt]
  rfl

/-- After the last point the running sum of squares is the column sum of squares over all rows. -/
private theorem total_sumsq (c : Dev nD) :
    (outsAt0 (F := Ideal) V c 49 (by decide)).2.2 = Cert.Spec.colsumsq (H1V V c) := by
  rw [run_sumsq V c 49 (by decide)]
  funext i
  rw [show Cert.Spec.zero32 = 0 from Ideal.ofBits_zero_f32, zero_add, Finset.sum_range (fun t => addQ (H1V V c) t i)]
  refine Eq.trans ?_ (sum_rows_blocks fun p => H1V V c (ix2 p (i 1)) * H1V V c (ix2 p (i 1)))
  refine Finset.sum_congr rfl fun t _ => ?_
  show dite _ _ _ = _
  rw [dif_pos t.isLt]
  rfl

/-- The column sums' array after the last point. -/
theorem arr0_9 (c : Dev nD) : (dat0 (F := Ideal) V c).arrAt 9 cfg0.N = Cert.Spec.colsum (H1V V c) := by
  have hN : cfg0.N = 50 := N0
  -- the window's one block sits at offset zero on both axes
  have hz : (fun a => win0_9.index tLast a * main_v11_1.ty.shape.size a) = fun _ => 0 :=
    funext fun a => by fin_cases a <;> decide
  have inb : ∀ a, win0_9.index tLast a * main_v11_1.ty.shape.size a + main_v11_1.ty.shape.size a ≤ main_v11_1.ty.shape.size a :=
    fun a => by rw [congrFun hz a, zero_add]
  refine (dat0 (F := Ideal) V c).arrAt_eq_of_cover 9 (Cert.Spec.colsum (H1V V c)) (fun t hf => ?_) (fun i => ?_)
  · -- the only write-back is at the last point, and writes the total
    have h49 : t.val = 49 := by have := (flush0_9 t).mp hf; have := t.isLt; omega
    obtain rfl : t = tLast := Fin.ext h49
    show (cfg0.win 9).cut (grid0.coords tLast) ((dat0 (F := Ideal) V c).after 9 tLast) = _
    rw [after0_9, total_sum]
    exact (Memref.read_access_unit_zero (Elt Ideal) main_v11_1 hz inb (Cert.Spec.colsum (H1V V c))).symm
  · -- and that block is all of the array
    refine ⟨tLast, (flush0_9 tLast).mpr rfl, ?_⟩
    show i ∈ ((View.whole main_v11_1).slice (win0_9.rect tLast)).set
    rw [View.set_slice_whole]
    exact View.mem_set_unit_zero (S := main_v11_1.ty.shape) hz inb i

/-- The column sums of squares' array after the last point. -/
theorem arr0_10 (c : Dev nD) : (dat0 (F := Ideal) V c).arrAt 10 cfg0.N = Cert.Spec.colsumsq (H1V V c) := by
  have hN : cfg0.N = 50 := N0
  -- the window's one block sits at offset zero on both axes
  have hz : (fun a => win0_10.index tLast a * main_v11_2.ty.shape.size a) = fun _ => 0 :=
    funext fun a => by fin_cases a <;> decide
  have inb : ∀ a, win0_10.index tLast a * main_v11_2.ty.shape.size a + main_v11_2.ty.shape.size a ≤ main_v11_2.ty.shape.size a :=
    fun a => by rw [congrFun hz a, zero_add]
  refine (dat0 (F := Ideal) V c).arrAt_eq_of_cover 10 (Cert.Spec.colsumsq (H1V V c)) (fun t hf => ?_) (fun i => ?_)
  · -- the only write-back is at the last point, and writes the total
    have h49 : t.val = 49 := by have := (flush0_10 t).mp hf; have := t.isLt; omega
    obtain rfl : t = tLast := Fin.ext h49
    show (cfg0.win 10).cut (grid0.coords tLast) ((dat0 (F := Ideal) V c).after 10 tLast) = _
    rw [after0_10, total_sumsq]
    exact (Memref.read_access_unit_zero (Elt Ideal) main_v11_2 hz inb (Cert.Spec.colsumsq (H1V V c))).symm
  · -- and that block is all of the array
    refine ⟨tLast, (flush0_10 tLast).mpr rfl, ?_⟩
    show i ∈ ((View.whole main_v11_2).slice (win0_10.rect tLast)).set
    rw [View.set_slice_whole]
    exact View.mem_set_unit_zero (S := main_v11_2.ty.shape) hz inb i

end Cert.KernelIdeal.Val

end
-- ==== Proof.Pay1.lean ====
/-
  What the second kernel's body computes from the blocks it loads: `Spec.out` on 2000 rows. The body loads the
  variance before the mean; the reciprocal square root is the same function on both sides.
-/
import proofs.«414882_j86947317941135_1_alg».proof.Proof.Gen.KernelIdeal.Skeleton
import proofs.«414882_j86947317941135_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx
open Cert.Spec (Mat)

/-- The left operand's index of the last product: its row is the output's row. -/
private theorem lhs_out_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- Its column is the summation index. -/
private theorem lhs_out_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right operand's row is the summation index. -/
private theorem rhs_out_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- Its column is the output's column. -/
private theorem rhs_out_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The product of a 2000 × 128 block with a 128 × 64 matrix into a zero accumulator, at row `p` and column `q`:
    the sum over the 128 shared entries. -/
private theorem matmul_out_apply (l : FVec Ideal S2000x128 .bf16) (r : FVec Ideal S128x64 .bf16) (p : Fin 2000) (q : Fin 64) :
    matmul dot_S2000x128_S128x64_S2000x64_1_0_0_1_n_n none l r (constant (F := Ideal) S2000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhs_out_0 _ _).trans hk
    | ⟨1, _⟩ => exact rhs_out_1 _ _)
  rw [el, er]

/-- The body's result block is `Spec.out` on 2000 rows of the loaded blocks (`v2` is the variance, `v7` the mean). -/
theorem pay_out (h : Vec Ideal S2000x128 .f32) (var mu g be : Vec Ideal S1x128 .f32) (W2 : Vec Ideal S64x128 .f32)
    (b2 : Vec Ideal S1x64 .f32) :
    k1_pay1 (F := Ideal) h var mu g be W2 b2 = Cert.Spec.out (n := 2000) h mu var g be W2 b2 := by
  funext i
  obtain ⟨p, q, rfl⟩ : ∃ (p : Fin 2000) (q : Fin 64), i = ix2 p q := ⟨i 0, i 1, eq_ix2 i⟩
  unfold k1_pay1
  rw [addf_apply, matmul_out_apply, broadcastTo_1b_ab_apply, shapeCast_self]
  simp only [Cert.Spec.out]
  congr 1
  · refine Finset.sum_congr rfl fun k _ => ?_
    rw [truncf_apply, addf_apply, mulf_apply, mulf_apply, subf_apply, transpose_ix2_apply, truncf_apply]
    simp only [shapeCast_self, broadcastTo_1b_ab_apply]
    rfl
  · rw [shapeCast_self]

end Cert.KernelIdeal.Val

end
-- ==== Proof.Region1.lean ====
/-
  The second kernel region. At each of the 50 grid points it reads a block of 2000 rows of the activations and the
  whole of the column statistics, scale, shift and last-layer weights, and writes the block of 2000 rows of the
  result. Here: the array the region leaves is `Spec.out` of the arrays it finds.
-/
import proofs.«414882_j86947317941135_1_alg».proof.Proof.Gen.KernelIdeal.Frame
import proofs.«414882_j86947317941135_1_alg».proof.Proof.Spec
import proofs.«414882_j86947317941135_1_alg».proof.Proof.Pay1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem Idealize.ShloMosaic.Pipeline
open Cert.Spec (Mat NR)

variable (V : (c : Dev nD) → (b : Ref sig .tc) → Buf (Elt Ideal) ((c : Thread nD τ).loc b))

/-- A whole-block access starts at the zero offsets. -/
private theorem hz : (![0, 0] : Fin 2 → Nat) = fun _ => 0 := funext fun a => by fin_cases a <;> rfl

/-- The block indices over the grid: the activations' and the result's row block is the point's number, their one
    column block is block 0; every other window stays at block (0, 0), the whole of its array. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `r` of the block of activations at point `t` is row `2000 t + r` of the array. -/
private theorem blk0_apply (c : Dev nD) (t : Fin cfg1.N) (r : Fin 2000) (k : Fin 128) (hr : 2000 * t.val + r.val < 100000) :
    (iblk1 (F := Ideal) V c 0 t : Vec Ideal S2000x128 .f32) (ix2 r k)
      = (V c main_v11_0 : S100000x128.Idx → EReal) (ix2 ⟨2000 * t.val + r.val, hr⟩ k) := by
  obtain ⟨e0, e1, -⟩ := idx_facts t
  unfold iblk1
  rw [View.read_apply]
  show V c main_v11_0 _ = V c main_v11_0 _
  congr 1
  funext a
  apply Fin.ext
  match a with
  | ⟨0, _⟩ => show win1_0.index t 0 * 2000 + 1 * r.val = 2000 * t.val + r.val; rw [e0]; omega
  | ⟨1, _⟩ => show win1_0.index t 1 * 128 + 1 * k.val = k.val; rw [e1]; omega

/-- The block of the column means at any point is the whole array. -/
private theorem blk1_eq (c : Dev nD) (t : Fin cfg1.N) :
    (iblk1 (F := Ideal) V c 1 t : Vec Ideal S1x128 .f32) = (V c main_v13 : S1x128.Idx → EReal) := by
  obtain ⟨-, -, e0, e1, -⟩ := idx_facts t
  funext x
  unfold iblk1
  rw [View.read_apply]
  show V c main_v13 _ = V c main_v13 x
  congr 1
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- The block of the column variances at any point is the whole array. -/
private theorem blk2_eq (c : Dev nD) (t : Fin cfg1.N) :
    (iblk1 (F := Ideal) V c 2 t : Vec Ideal S1x128 .f32) = (V c main_v17 : S1x128.Idx → EReal) := by
  obtain ⟨-, -, -, -, e0, e1, -⟩ := idx_facts t
  funext x
  unfold iblk1
  rw [View.read_apply]
  show V c main_v17 _ = V c main_v17 x
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-- The block of the scale at any point is the whole array. -/
private theorem blk3_eq (c : Dev nD) (t : Fin cfg1.N) :
    (iblk1 (F := Ideal) V c 3 t : Vec Ideal S1x128 .f32) = (V c main_v18 : S1x128.Idx → EReal) := by
  obtain ⟨-, -, -, -, -, -, e0, e1, -⟩ := idx_facts t
  funext x
  unfold iblk1
  rw [View.read_apply]
  show V c main_v18 _ = V c main_v18 x
  congr 1
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- The block of the shift at any point is the whole array. -/
private theorem blk4_eq (c : Dev nD) (t : Fin cfg1.N) :
    (iblk1 (F := Ideal) V c 4 t : Vec Ideal S1x128 .f32) = (V c main_v19 : S1x128.Idx → EReal) := by
  obtain ⟨-, -, -, -, -, -, -, -, e0, e1, -⟩ := idx_facts t
  funext x
  unfold iblk1
  rw [View.read_apply]
  show V c main_v19 _ = V c main_v19 x
  congr 1
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- The block of the last layer's weights at any point is the whole array. -/
private theorem blk5_eq (c : Dev nD) (t : Fin cfg1.N) :
    (iblk1 (F := Ideal) V c 5 t : Vec Ideal S64x128 .f32) = (V c main_arg13 : S64x128.Idx → EReal) := by
  obtain ⟨-, -, -, -, -, -, -, -, -, -, e0, e1, -⟩ := idx_facts t
  funext x
  unfold iblk1
  rw [View.read_apply]
  show V c main_arg13 _ = V c main_arg13 x
  congr 1
  funext a
  apply Fin.ext
  match a with
  | ⟨0, _⟩ => show win1_5.index t 0 * 64 + 1 * (x 0).val = (x 0).val; rw [e0]; omega
  | ⟨1, _⟩ => show win1_5.index t 1 * 128 + 1 * (x 1).val = (x 1).val; rw [e1]; omega

/-- The block of the last layer's offsets at any point is the whole array. -/
private theorem blk6_eq (c : Dev nD) (t : Fin cfg1.N) :
    (iblk1 (F := Ideal) V c 6 t : Vec Ideal S1x64 .f32) = (V c main_v20 : S1x64.Idx → EReal) := by
  obtain ⟨-, -, -, -, -, -, -, -, -, -, -, -, e0, e1, -⟩ := idx_facts t
  funext x
  unfold iblk1
  rw [View.read_apply]
  show V c main_v20 _ = V c main_v20 x
  congr 1
  funext a
  apply Fin.ext
  match a with
  | ⟨0, _⟩ => show win1_6.index t 0 * 1 + 1 * (x 0).val = (x 0).val; rw [e0]; omega
  | ⟨1, _⟩ => show win1_6.index t 1 * 64 + 1 * (x 1).val = (x 1).val; rw [e1]; omega

/-- `Spec.out` reads only row `p` of the activations for row `p` of the result: two matrices of activations that
    agree on a row, one read at row `p` and the other at row `p'`, give the same row of the result. -/
private theorem out_rows {n n' : ℕ} (hb : Mat n 128) (H : Mat n' 128) (mu var g be : Mat 1 128) (W2 : Mat 64 128) (b2 : Mat 1 64)
    (p : Fin n) (p' : Fin n') (hrows : ∀ k : Fin 128, hb (ix2 p k) = H (ix2 p' k)) (q : Fin 64) :
    Cert.Spec.out hb mu var g be W2 b2 (ix2 p q) = Cert.Spec.out H mu var g be W2 b2 (ix2 p' q) := by
  show (∑ k : Fin 128, ((((hb (ix2 p k) - mu (ix2 0 k)) * Ideal.rsqrt (var (ix2 0 k) + Cert.Spec.eps32)) * g (ix2 0 k)) + be (ix2 0 k)) * W2 (ix2 q k)) + b2 (ix2 0 q)
     = (∑ k : Fin 128, ((((H (ix2 p' k) - mu (ix2 0 k)) * Ideal.rsqrt (var (ix2 0 k) + Cert.Spec.eps32)) * g (ix2 0 k)) + be (ix2 0 k)) * W2 (ix2 q k)) + b2 (ix2 0 q)
  simp only [hrows]

/-- Entry `(r, q)` of the result's block at point `t` sits at row `2000 t + r`, column `q` of the array. -/
private theorem emb7 (t : Fin cfg1.N) (r : Fin 2000) (q : Fin 64) (hr : 2000 * t.val + r.val < 100000) :
    ((cfg1.win 7).blk t).view.emb (ix2 r q) = (ix2 ⟨2000 * t.val + r.val, hr⟩ q : S100000x64.Idx) := by
  obtain ⟨-, -, -, -, -, -, -, -, -, -, -, -, -, -, e0, e1⟩ := idx_facts t
  funext a
  apply Fin.ext
  match a with
  | ⟨0, _⟩ => show win1_7.index t 0 * 2000 + 1 * r.val = 2000 * t.val + r.val; rw [e0]; omega
  | ⟨1, _⟩ => show win1_7.index t 1 * 64 + 1 * q.val = q.val; rw [e1]; omega

/-- What point `t` writes back is its block of rows of `Spec.out` of the whole arrays. -/
private theorem flushed_eq (c : Dev nD) (t : Fin cfg1.N) :
    (dat1 (F := Ideal) V c).flushed 7 t = ((cfg1.win 7).blk t).view.read (Elt Ideal)
      (Cert.Spec.out (V c main_v11_0) (V c main_v13) (V c main_v17) (V c main_v18) (V c main_v19) (V c main_arg13) (V c main_v20)) := by
  show (cfg1.win 7).cut (grid1.coords t) ((dat1 V c).after 7 t) = _
  rw [after1_7]
  unfold out1_7
  rw [View.canon_unit_zero hz]
  simp only [View.ld_unit_zero (S := S2000x128) hz, View.ld_unit_zero (S := S1x128) hz, View.ld_unit_zero (S := S64x128) hz, View.ld_unit_zero (S := S1x64) hz]
  rw [pay_out]
  rw [blk1_eq V c t, blk2_eq V c t, blk3_eq V c t, blk4_eq V c t, blk5_eq V c t, blk6_eq V c t]
  funext j
  obtain ⟨r, q, rfl⟩ : ∃ (r : Fin 2000) (q : Fin 64), j = ix2 r q := ⟨j 0, j 1, eq_ix2 j⟩
  have ht : t.val < 50 := lt_of_lt_of_eq t.isLt N_1
  have hr : 2000 * t.val + r.val < 100000 := by have := r.isLt; omega
  show Cert.Spec.out (n := 2000) (iblk1 V c 0 t) (V c main_v13) (V c main_v17) (V c main_v18) (V c main_v19) (V c main_arg13) (V c main_v20) (ix2 r q)
    = Cert.Spec.out (n := NR) (V c main_v11_0) (V c main_v13) (V c main_v17) (V c main_v18) (V c main_v19) (V c main_arg13) (V c main_v20) (((cfg1.win 7).blk t).view.emb (ix2 r q))
  rw [emb7 t r q hr]
  exact out_rows (n := 2000) (n' := NR) (iblk1 V c 0 t) (V c main_v11_0) (V c main_v13) (V c main_v17) (V c main_v18) (V c main_v19) (V c main_arg13) (V c main_v20)
    r ⟨2000 * t.val + r.val, hr⟩ (fun k => blk0_apply V c t r k hr) q

/-- An index of the result array is in point `t`'s block iff each coordinate is in the block's range on its axis. -/
private theorem mem_blk7 (t : Fin cfg1.N) (i : S100000x64.Idx) :
    i ∈ ((cfg1.win 7).blk t).view.set ↔ ∀ a : Fin 2, win1_7.index t a * S2000x64.size a ≤ (i a).val ∧ (i a).val < win1_7.index t a * S2000x64.size a + S2000x64.size a := by
  show i ∈ ((View.whole main_v21).slice (win1_7.rect t)).set ↔ _
  rw [View.set_slice_whole, Rect.mem_set_unit]
  exact Iff.rfl

/-- The blocks tile the array: row `p` is in the block of point `p / 2000`. -/
private theorem cover7 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  obtain ⟨t, htv⟩ : ∃ t : Fin cfg1.N, t.val = (i 0).val / 2000 :=
    ⟨⟨(i 0).val / 2000, by rw [show cfg1.N = 50 from N_1]; omega⟩, rfl⟩
  obtain ⟨-, -, -, -, -, -, -, -, -, -, -, -, -, -, e0, e1⟩ := idx_facts t
  refine ⟨t, flush1_7 t, ?_⟩
  rw [mem_blk7]
  intro a
  match a with
  | ⟨0, _⟩ => show win1_7.index t 0 * 2000 ≤ (i 0).val ∧ (i 0).val < win1_7.index t 0 * 2000 + 2000; rw [e0, htv]; omega
  | ⟨1, _⟩ => show win1_7.index t 1 * 64 ≤ (i 1).val ∧ (i 1).val < win1_7.index t 1 * 64 + 64; rw [e1]; omega

/-- The region's output array after its last point: every row block is the normalise-and-project of the same rows
    of the activations, and the blocks tile the array. -/
theorem arr1_7 (c : Dev nD) :
    (dat1 (F := Ideal) V c).arrAt 7 cfg1.N
      = Cert.Spec.out (V c main_v11_0) (V c main_v13) (V c main_v17) (V c main_v18) (V c main_v19) (V c main_arg13) (V c main_v20) :=
  (dat1 (F := Ideal) V c).arrAt_eq_of_cover 7
    (Cert.Spec.out (V c main_v11_0) (V c main_v13) (V c main_v17) (V c main_v18) (V c main_v19) (V c main_arg13) (V c main_v20))
    (fun t _ => flushed_eq V c t) cover7

end Cert.KernelIdeal.Val

end
-- ==== Proof.Reals.lean ====
/-
  Extended reals that are real numbers. An entry is called real when it is the image of a real number; sums,
  products, differences and maxima of real entries are real, and so is every finite sum of them. On real entries the
  mean of the squared deviations from the mean is the mean of the squares less the squared mean: the one law that
  needs the entries to be real, since on the extended reals a product does not distribute over a sum at infinity.
-/
import Mathlib.Data.EReal.Basic
import Mathlib.Data.EReal.Operations
import Mathlib.Algebra.BigOperators.Group.Finset.Basic
import Mathlib.Tactic.Ring
import Mathlib.Tactic.FieldSimp
import Idealize.ShloMosaic.PureOps.Ideal

open Idealize.ShloMosaic

namespace Cert.Reals

/-- `x` is the image of a real number. -/
def IsR (x : EReal) : Prop := ∃ r : ℝ, x = (r : EReal)

theorem isR_coe (r : ℝ) : IsR (r : EReal) := ⟨r, rfl⟩
theorem isR_zero : IsR (0 : EReal) := ⟨0, rfl⟩
theorem isR_add {x y : EReal} (hx : IsR x) (hy : IsR y) : IsR (x + y) := by
  obtain ⟨a, rfl⟩ := hx
  obtain ⟨b, rfl⟩ := hy
  exact ⟨a + b, (EReal.coe_add a b).symm⟩
theorem isR_sub {x y : EReal} (hx : IsR x) (hy : IsR y) : IsR (x - y) := by
  obtain ⟨a, rfl⟩ := hx
  obtain ⟨b, rfl⟩ := hy
  exact ⟨a - b, (EReal.coe_sub a b).symm⟩
theorem isR_mul {x y : EReal} (hx : IsR x) (hy : IsR y) : IsR (x * y) := by
  obtain ⟨a, rfl⟩ := hx
  obtain ⟨b, rfl⟩ := hy
  exact ⟨a * b, (EReal.coe_mul a b).symm⟩
theorem isR_max {x y : EReal} (hx : IsR x) (hy : IsR y) : IsR (max x y) := by
  rcases le_total x y with h | h
  · rw [max_eq_right h]; exact hy
  · rw [max_eq_left h]; exact hx
theorem isR_sum {ι : Type*} (s : Finset ι) (f : ι → EReal) (hf : ∀ i ∈ s, IsR (f i)) : IsR (∑ i ∈ s, f i) := by
  classical
  induction s using Finset.induction_on with
  | empty => rw [Finset.sum_empty]; exact isR_zero
  | insert a s ha ih =>
    rw [Finset.sum_insert ha]
    exact isR_add (hf a (Finset.mem_insert_self a s)) (ih fun i hi => hf i (Finset.mem_insert_of_mem hi))
/-- The all-zero pattern has zero exponent and zero fraction, so it denotes `0`. -/
private theorem zero_word : Ideal.ofBits .f32 0x00000000#32 = (0 : EReal) := by
  simp [Ideal.ofBits, Ideal.ieee]

/-- The pattern `0x47C35000` has exponent field `143` and fraction `4411392`: it denotes
    `(2^23 + 4411392) · 2^(143 - 127 - 23) = 12800000 / 128 = 100000`. -/
private theorem rows_word : Ideal.ofBits .f32 0x47C35000#32 = ((100000 : ℝ) : EReal) := by
  simp [Ideal.ofBits, Ideal.ieee, -EReal.coe_mul]; norm_num

/-- A finite sum of images of reals is the image of the sum. -/
private theorem coe_sum {ι : Type*} (s : Finset ι) (g : ι → ℝ) :
    (∑ p ∈ s, ((g p : ℝ) : EReal)) = ((∑ p ∈ s, g p : ℝ) : EReal) := by
  classical
  induction s using Finset.induction_on with
  | empty => simp
  | insert a s ha ih => rw [Finset.sum_insert ha, Finset.sum_insert ha, ih, EReal.coe_add]

/-- The float zero word is the real zero. -/
theorem isR_zero32 : IsR (Ideal.ofBits .f32 0x00000000#32) := by
  rw [zero_word]; exact isR_zero
/-- Division by the row count keeps an entry real. -/
theorem isR_div_rows {x : EReal} (hx : IsR x) : IsR (Ideal.div x (Ideal.ofBits .f32 0x47C35000#32)) := by
  rw [rows_word, Ideal.div_coe (by norm_num : (100000 : ℝ) ≠ 0)]
  exact isR_mul hx (isR_coe _)

/-- The word `0x47C35000` is the real `100000`. -/
theorem rows32_eq : Ideal.ofBits .f32 0x47C35000#32 = ((100000 : ℝ) : EReal) := rows_word
/-- The float zero word is zero. -/
theorem zero32_eq : Ideal.ofBits .f32 0x00000000#32 = (0 : EReal) := zero_word

/-- THE VARIANCE LAW over `n = 100000` real entries, in the two programs' own spellings: the sum of squared
    deviations from the mean (each sum started from the zero word), divided by the count, is the sum of squares
    divided by the count less the square of the sum divided by the count. -/
theorem variance_law (f : Fin 100000 → EReal) (hf : ∀ p, IsR (f p)) :
    Ideal.div (Ideal.ofBits .f32 0x00000000#32
        + ∑ p, (f p - Ideal.div (Ideal.ofBits .f32 0x00000000#32 + ∑ q, f q) (Ideal.ofBits .f32 0x47C35000#32))
             * (f p - Ideal.div (Ideal.ofBits .f32 0x00000000#32 + ∑ q, f q) (Ideal.ofBits .f32 0x47C35000#32)))
      (Ideal.ofBits .f32 0x47C35000#32)
    = Ideal.div (∑ p, f p * f p) (Ideal.ofBits .f32 0x47C35000#32)
      - Ideal.div (∑ p, f p) (Ideal.ofBits .f32 0x47C35000#32) * Ideal.div (∑ p, f p) (Ideal.ofBits .f32 0x47C35000#32) := by
  choose g hg using hf
  obtain rfl : f = fun p => ((g p : ℝ) : EReal) := funext hg
  -- In ℝ: the sum of squared deviations from any `m` is `Q - 2·m·S + n·m²`.
  have e : ∀ m : ℝ, (∑ p, (g p - m) * (g p - m))
      = (∑ p, g p * g p) - 2 * m * (∑ p, g p) + 100000 * (m * m) := by
    intro m
    have h : ∀ p, (g p - m) * (g p - m) = g p * g p - 2 * m * g p + m * m := fun p => by ring
    simp only [h, Finset.sum_add_distrib, Finset.sum_sub_distrib, ← Finset.mul_sum, Finset.sum_const,
      Finset.card_univ, Fintype.card_fin, nsmul_eq_mul]
    push_cast
    ring
  rw [zero_word, rows_word]
  simp only [Ideal.div_coe (by norm_num : (100000 : ℝ) ≠ 0), zero_add, coe_sum, ← EReal.coe_mul,
    ← EReal.coe_sub]
  rw [e]
  congr 1
  ring

end Cert.Reals
-- ==== Proof.RefSpec.lean ====
/-
  The reference program, stage by stage, is the network of `Spec`. Its aggregated features `xA` (gather of the
  transposed table at the wrapped column indices, scatter-added at the row indices, plus a bias) are kept as one
  unopened array: both programs compute it by the same operations. From there on every stage is read at an index:
  a matrix product as a sum over the contracted axis, a bias as a broadcast row, the clip as a maximum with zero,
  the column statistics as sums over all rows. The reference takes the variance as the mean squared deviation;
  `Spec.varK` is the mean of squares less the squared mean; they agree when every activation is a real number.
-/
import proofs.«414882_j86947317941135_1_alg».proof.Proof.Gen.ReferenceIdeal.Read
import proofs.«414882_j86947317941135_1_alg».proof.Proof.Spec
import proofs.«414882_j86947317941135_1_alg».proof.Proof.Reals
import Idealize.ShloMosaic.Lib.Pipeline.Value
import Idealize.ShloMosaic.Lib.ValueIdx
import Idealize.ShloMosaic.PureOps.Ideal.Laws

noncomputable section

namespace Cert.ReferenceIdeal.RefSpec

open Cert.ReferenceIdeal Cert.ReferenceIdeal.Gen Cert.ReferenceIdeal.Read Idealize.ShloMosaic Idealize.ShloMosaic.TcCoe
open Idealize.ShloMosaic.ValueIdx Idealize.SL.Sem Idealize.ShloMosaic.StableHlo
open Cert.Spec (Mat NR)
open Cert.Reals (IsR)

/-- The aggregated features: the reference's own term, unopened. -/
abbrev xA (x1 x2 : (⟨S1600000, .i32⟩ : BufTy).Contents (Elt Ideal)) (x3 : (⟨S128x100000, .f32⟩ : BufTy).Contents (Elt Ideal)) (x4 : (⟨S128, .f32⟩ : BufTy).Contents (Elt Ideal)) : Mat NR 128 :=
  val_main_v13 (F := Ideal) x1 x2 x3 x4

/-- The join at row `p`, column `k`: the aggregated features below column 128, the linear layer's from 128 on. -/
private theorem join_at (x0 : (⟨S100000x128, .f32⟩ : BufTy).Contents (Elt Ideal)) (x1 x2 : (⟨S1600000, .i32⟩ : BufTy).Contents (Elt Ideal)) (x3 : (⟨S128x100000, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (p : Fin 100000) (k : Fin 256) :
    val_main_v19 (F := Ideal) x0 x1 x2 x3 x4 x5 x6 (ix2 p k)
      = if h : k.val < 128 then val_main_v13 (F := Ideal) x1 x2 x3 x4 (ix2 p (⟨k.val, h⟩ : Fin 128))
        else val_main_v18 (F := Ideal) x0 x5 x6 (ix2 p (⟨k.val - 128, by have := k.isLt; omega⟩ : Fin 128)) := by
  unfold val_main_v19
  split
  · rename_i h
    exact concatenate_pair_apply_left (t := S100000x256) (s₁ := S100000x128) (s₂ := S100000x128) (1 : Fin 2) _ _
      concatenates_S100000x128_S100000x128_S100000x256_d1 (ix2 p k) rfl
      (ix2 p (⟨k.val, h⟩ : Fin 128)) (fun b => by match b with | ⟨0, _⟩ => rfl | ⟨1, _⟩ => rfl)
  · rename_i h
    exact concatenate_pair_apply_right (t := S100000x256) (s₁ := S100000x128) (s₂ := S100000x128) (1 : Fin 2) _ _
      concatenates_S100000x128_S100000x128_S100000x256_d1 (ix2 p k) rfl rfl
      (ix2 p (⟨k.val - 128, by have := k.isLt; omega⟩ : Fin 128))
      (fun b hb => by match b, hb with | ⟨0, _⟩, _ => rfl | ⟨1, _⟩, hb => exact absurd rfl hb)
      (by show (k.val - 128) + 128 = k.val; omega)

/-! The reference's index functions at row `p`, column `q`, as the index constructors. -/
private theorem lidx29 (p : Fin 100000) (q k : Fin 128) : lidx_main_v29 (ix2 p q) k = ix2 p k := funext fun a => Fin.ext (by match a with | ⟨0, _⟩ => rfl | ⟨1, _⟩ => rfl)
private theorem ridx29 (p : Fin 100000) (q k : Fin 128) : ridx_main_v29 (ix2 p q) k = ix2 k q := funext fun a => Fin.ext (by match a with | ⟨0, _⟩ => rfl | ⟨1, _⟩ => rfl)
private theorem idx28 (k q : Fin 128) : idx_main_v28 (ix2 k q) = ix2 q k := funext fun a => Fin.ext (by match a with | ⟨0, _⟩ => rfl | ⟨1, _⟩ => rfl)
private theorem idx3031 (p : Fin 100000) (q : Fin 128) : idx_main_v30 (idx_main_v31 (ix2 p q)) = ix1 q := funext fun a => Fin.ext (by match a with | ⟨0, _⟩ => rfl)
private theorem lidx21 (p : Fin 100000) (q : Fin 128) (k : Fin 256) : lidx_main_v21 (ix2 p q) k = ix2 p k := funext fun a => Fin.ext (by match a with | ⟨0, _⟩ => rfl | ⟨1, _⟩ => rfl)
private theorem ridx21 (p : Fin 100000) (q : Fin 128) (k : Fin 256) : ridx_main_v21 (ix2 p q) k = ix2 k q := funext fun a => Fin.ext (by match a with | ⟨0, _⟩ => rfl | ⟨1, _⟩ => rfl)
private theorem idx20 (k : Fin 256) (q : Fin 128) : idx_main_v20 (ix2 k q) = ix2 q k := funext fun a => Fin.ext (by match a with | ⟨0, _⟩ => rfl | ⟨1, _⟩ => rfl)
private theorem idx2223 (p : Fin 100000) (q : Fin 128) : idx_main_v22 (idx_main_v23 (ix2 p q)) = ix1 q := funext fun a => Fin.ext (by match a with | ⟨0, _⟩ => rfl)
private theorem lidx15 (p : Fin 100000) (q k : Fin 128) : lidx_main_v15 (ix2 p q) k = ix2 p k := funext fun a => Fin.ext (by match a with | ⟨0, _⟩ => rfl | ⟨1, _⟩ => rfl)
private theorem ridx15 (p : Fin 100000) (q k : Fin 128) : ridx_main_v15 (ix2 p q) k = ix2 k q := funext fun a => Fin.ext (by match a with | ⟨0, _⟩ => rfl | ⟨1, _⟩ => rfl)
private theorem idx14 (k q : Fin 128) : idx_main_v14 (ix2 k q) = ix2 q k := funext fun a => Fin.ext (by match a with | ⟨0, _⟩ => rfl | ⟨1, _⟩ => rfl)
private theorem idx1617 (p : Fin 100000) (q : Fin 128) : idx_main_v16 (idx_main_v17 (ix2 p q)) = ix1 q := funext fun a => Fin.ext (by match a with | ⟨0, _⟩ => rfl)

/-- The linear layer on the node features, at row `p`, column `q`. -/
private theorem xX_at (x0 : (⟨S100000x128, .f32⟩ : BufTy).Contents (Elt Ideal)) (x5 : (⟨S128x128, .f32⟩ : BufTy).Contents (Elt Ideal)) (x6 : (⟨S128, .f32⟩ : BufTy).Contents (Elt Ideal)) (p : Fin 100000) (q : Fin 128) :
    val_main_v18 (F := Ideal) x0 x5 x6 (ix2 p q) = Cert.Spec.xX x0 x5 (Cert.Spec.row x6) (ix2 p q) := by
  rw [val_main_v18_apply, val_main_v15_apply, val_main_v17_apply, val_main_v16_apply, idx1617, Ideal.addf_def]
  show (∑ k : Fin 128, _) + _ = (∑ k : Fin 128, x0 (ix2 p k) * x5 (ix2 q k)) + x6 (ix1 q)
  refine congrArg (· + x6 (ix1 q)) (Finset.sum_congr rfl fun k _ => ?_)
  rw [lidx15, ridx15, val_main_v14_apply, idx14]

/-- The hidden layer: the join times the weights, the bias, both residuals, clipped at zero. -/
private theorem hid_at (x0 : (⟨S100000x128, .f32⟩ : BufTy).Contents (Elt Ideal)) (x1 x2 : (⟨S1600000, .i32⟩ : BufTy).Contents (Elt Ideal)) (x3 : (⟨S128x100000, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (p : Fin 100000) (q : Fin 128) :
    val_main_v27 (F := Ideal) x0 x1 x2 x3 x4 x5 x6 x7 x8 (ix2 p q)
      = Cert.Spec.hid (xA x1 x2 x3 x4) (Cert.Spec.xX x0 x5 (Cert.Spec.row x6)) x7 (Cert.Spec.row x8) (ix2 p q) := by
  rw [val_main_v27_apply, val_main_v26_apply, val_main_v25_apply, val_main_v24_apply, val_main_v21_apply,
    val_main_v23_apply, val_main_v22_apply, idx2223, val_main_call0_v0_apply, val_main_call0_cst_apply, xX_at,
    Ideal.maximumf_def, Ideal.addf_def, Ideal.addf_def, Ideal.addf_def]
  show max ((((∑ k : Fin 256, _) + _) + _) + _) _
    = max ((((∑ k : Fin 256, Cert.Spec.cat (xA x1 x2 x3 x4) (Cert.Spec.xX x0 x5 (Cert.Spec.row x6)) p k * x7 (ix2 q k))
        + x8 (ix1 q)) + xA x1 x2 x3 x4 (ix2 p q)) + Cert.Spec.xX x0 x5 (Cert.Spec.row x6) (ix2 p q)) Cert.Spec.zero32
  refine congrArg (fun s => max (((s + x8 (ix1 q)) + xA x1 x2 x3 x4 (ix2 p q)) + Cert.Spec.xX x0 x5 (Cert.Spec.row x6) (ix2 p q)) Cert.Spec.zero32)
    (Finset.sum_congr rfl fun k _ => ?_)
  rw [lidx21, ridx21, val_main_v20_apply, idx20, join_at]
  unfold Cert.Spec.cat
  by_cases h : k.val < 128
  · rw [dif_pos h, dif_pos h]
  · rw [dif_neg h, dif_neg h, xX_at]

/-- The activations the reference takes statistics of are `Spec.H1` of its arguments. -/
theorem ref_h1 (x0 : (⟨S100000x128, .f32⟩ : BufTy).Contents (Elt Ideal)) (x1 x2 : (⟨S1600000, .i32⟩ : BufTy).Contents (Elt Ideal)) (x3 : (⟨S128x100000, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v33 (F := Ideal) x0 x1 x2 x3 x4 x5 x6 x7 x8 x9 x10
      = Cert.Spec.H1 x0 (xA x1 x2 x3 x4) x5 (Cert.Spec.row x6) x7 (Cert.Spec.row x8) x9 (Cert.Spec.row x10) := by
  funext i
  obtain ⟨p, q, rfl⟩ : ∃ (p : Fin 100000) (q : Fin 128), i = ix2 p q := ⟨i 0, i 1, eq_ix2 i⟩
  rw [val_main_v33_apply, val_main_v32_apply, val_main_v29_apply, val_main_v31_apply, val_main_v30_apply, idx3031,
    val_main_call1_v0_apply, val_main_call1_cst_apply, Ideal.maximumf_def, Ideal.addf_def]
  show max ((∑ k : Fin 128, _) + _) _
    = max ((∑ k : Fin 128, Cert.Spec.hid (xA x1 x2 x3 x4) (Cert.Spec.xX x0 x5 (Cert.Spec.row x6)) x7 (Cert.Spec.row x8) (ix2 p k) * x9 (ix2 q k))
        + x10 (ix1 q)) Cert.Spec.zero32
  refine congrArg (fun s => max (s + x10 (ix1 q)) Cert.Spec.zero32) (Finset.sum_congr rfl fun k _ => ?_)
  rw [lidx29, ridx29, val_main_v28_apply, idx28, hid_at]

/-! The statistics' and the last layer's index functions, as the constructors. -/
private theorem idx34 (k : Fin 128) (r : Fin 100000) : idx_main_v34 (ix1 k) r = ix2 r k := funext fun a => Fin.ext (by match a with | ⟨0, _⟩ => rfl | ⟨1, _⟩ => rfl)
private theorem idx41 (k : Fin 128) (r : Fin 100000) : idx_main_v41 (ix1 k) r = ix2 r k := funext fun a => Fin.ext (by match a with | ⟨0, _⟩ => rfl | ⟨1, _⟩ => rfl)
private theorem idx3738 (p : Fin 100000) (k : Fin 128) : idx_main_v37 (idx_main_v38 (ix2 p k)) = ix1 k := funext fun a => Fin.ext (by match a with | ⟨0, _⟩ => rfl)
private theorem idx4445 (p : Fin 100000) (k : Fin 128) : idx_main_v44 (idx_main_v45 (ix2 p k)) = ix1 k := funext fun a => Fin.ext (by match a with | ⟨0, _⟩ => rfl)
private theorem idx5051 (p : Fin 100000) (k : Fin 128) : idx_main_v50 (idx_main_v51 (ix2 p k)) = ix1 k := funext fun a => Fin.ext (by match a with | ⟨0, _⟩ => rfl)
private theorem idx5354 (p : Fin 100000) (k : Fin 128) : idx_main_v53 (idx_main_v54 (ix2 p k)) = ix1 k := funext fun a => Fin.ext (by match a with | ⟨0, _⟩ => rfl)
private theorem idx5657 (p : Fin 100000) (k : Fin 128) : idx_main_v56 (idx_main_v57 (ix2 p k)) = ix1 k := funext fun a => Fin.ext (by match a with | ⟨0, _⟩ => rfl)
private theorem idx6162 (p : Fin 100000) (q : Fin 64) : idx_main_v61 (idx_main_v62 (ix2 p q)) = ix1 q := funext fun a => Fin.ext (by match a with | ⟨0, _⟩ => rfl)
private theorem lidx60 (p : Fin 100000) (q : Fin 64) (k : Fin 128) : lidx_main_v60 (ix2 p q) k = ix2 p k := funext fun a => Fin.ext (by match a with | ⟨0, _⟩ => rfl | ⟨1, _⟩ => rfl)
private theorem ridx60 (p : Fin 100000) (q : Fin 64) (k : Fin 128) : ridx_main_v60 (ix2 p q) k = ix2 k q := funext fun a => Fin.ext (by match a with | ⟨0, _⟩ => rfl | ⟨1, _⟩ => rfl)
private theorem idx59 (k : Fin 128) (q : Fin 64) : idx_main_v59 (ix2 k q) = ix2 q k := funext fun a => Fin.ext (by match a with | ⟨0, _⟩ => rfl | ⟨1, _⟩ => rfl)

/-- The reference's column mean, as it spells it: the column's sum started from the zero word, over the row count. -/
private theorem mean_raw (x0 : (⟨S100000x128, .f32⟩ : BufTy).Contents (Elt Ideal)) (x1 x2 : (⟨S1600000, .i32⟩ : BufTy).Contents (Elt Ideal)) (x3 : (⟨S128x100000, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (h : Mat NR 128) (hh : val_main_v33 (F := Ideal) x0 x1 x2 x3 x4 x5 x6 x7 x8 x9 x10 = h) (k : Fin 128) :
    val_main_v36 (F := Ideal) x0 x1 x2 x3 x4 x5 x6 x7 x8 x9 x10 (ix1 k)
      = Ideal.div (Ideal.ofBits .f32 0x00000000#32 + ∑ r : Fin 100000, h (ix2 r k)) (Ideal.ofBits .f32 0x47C35000#32) := by
  rw [val_main_v36_apply, val_main_v34_apply, val_main_v35_apply, val_main_cst_2_apply, val_main_cst_1_apply, hh,
    Ideal.hostDivf_def, Ideal.ofBits_def, Ideal.ofBits_def]
  refine congrArg (fun s => Ideal.div (Ideal.ofBits .f32 0x00000000#32 + s) (Ideal.ofBits .f32 0x47C35000#32)) (Finset.sum_congr rfl fun r _ => ?_)
  rw [idx34]

/-- The column mean is `Spec.mean` of the column sum: the zero word adds nothing. -/
private theorem mean_at (x0 : (⟨S100000x128, .f32⟩ : BufTy).Contents (Elt Ideal)) (x1 x2 : (⟨S1600000, .i32⟩ : BufTy).Contents (Elt Ideal)) (x3 : (⟨S128x100000, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (h : Mat NR 128) (hh : val_main_v33 (F := Ideal) x0 x1 x2 x3 x4 x5 x6 x7 x8 x9 x10 = h) (k : Fin 128) :
    val_main_v36 (F := Ideal) x0 x1 x2 x3 x4 x5 x6 x7 x8 x9 x10 (ix1 k) = Cert.Spec.mean (Cert.Spec.colsum h) (ix2 0 k) := by
  rw [mean_raw x0 x1 x2 x3 x4 x5 x6 x7 x8 x9 x10 h hh, Cert.Reals.zero32_eq, zero_add]
  rfl

/-- The reference's variance, the mean squared deviation from the mean, is `Spec.varK` on real activations. -/
private theorem var_at (x0 : (⟨S100000x128, .f32⟩ : BufTy).Contents (Elt Ideal)) (x1 x2 : (⟨S1600000, .i32⟩ : BufTy).Contents (Elt Ideal)) (x3 : (⟨S128x100000, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (h : Mat NR 128) (hh : val_main_v33 (F := Ideal) x0 x1 x2 x3 x4 x5 x6 x7 x8 x9 x10 = h) (hfin : ∀ i, IsR (h i)) (k : Fin 128) :
    val_main_v43 (F := Ideal) x0 x1 x2 x3 x4 x5 x6 x7 x8 x9 x10 (ix1 k)
      = Cert.Spec.varK (Cert.Spec.colsum h) (Cert.Spec.colsumsq h) (ix2 0 k) := by
  rw [val_main_v43_apply, val_main_v41_apply, val_main_v42_apply, val_main_cst_4_apply, val_main_cst_3_apply,
    Ideal.hostDivf_def, Ideal.ofBits_def, Ideal.ofBits_def]
  have e : ∀ r : Fin 100000, val_main_v40 (F := Ideal) x0 x1 x2 x3 x4 x5 x6 x7 x8 x9 x10 (idx_main_v41 (ix1 k) r)
      = (h (ix2 r k) - Ideal.div (Ideal.ofBits .f32 0x00000000#32 + ∑ q : Fin 100000, h (ix2 q k)) (Ideal.ofBits .f32 0x47C35000#32))
        * (h (ix2 r k) - Ideal.div (Ideal.ofBits .f32 0x00000000#32 + ∑ q : Fin 100000, h (ix2 q k)) (Ideal.ofBits .f32 0x47C35000#32)) := fun r => by
    rw [idx41, val_main_v40_apply, val_main_v39_apply, val_main_v38_apply, val_main_v37_apply, idx3738,
      mean_raw x0 x1 x2 x3 x4 x5 x6 x7 x8 x9 x10 h hh, hh, Ideal.mulf_def, Ideal.subf_def]
  rw [Finset.sum_congr rfl fun r _ => e r]
  exact Cert.Reals.variance_law (fun r => h (ix2 r k)) (fun r => hfin _)

/-- The reference's result is `Spec.out` of the activations, their column mean and `Spec.varK`, when every
    activation is real (the variance law). -/
theorem ref_out (x0 : (⟨S100000x128, .f32⟩ : BufTy).Contents (Elt Ideal)) (x1 x2 : (⟨S1600000, .i32⟩ : BufTy).Contents (Elt Ideal)) (x3 : (⟨S128x100000, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (x11 x12 : (⟨S128, .f32⟩ : BufTy).Contents (Elt Ideal)) (x13 : (⟨S64x128, .f32⟩ : BufTy).Contents (Elt Ideal)) (x14 : (⟨S64, .f32⟩ : BufTy).Contents (Elt Ideal))
    (hfin : ∀ i, IsR (Cert.Spec.H1 x0 (xA x1 x2 x3 x4) x5 (Cert.Spec.row x6) x7 (Cert.Spec.row x8) x9 (Cert.Spec.row x10) i)) :
    val_main_v63 (F := Ideal) x0 x1 x2 x3 x4 x5 x6 x7 x8 x9 x10 x11 x12 x13 x14
      = Cert.Spec.out (Cert.Spec.H1 x0 (xA x1 x2 x3 x4) x5 (Cert.Spec.row x6) x7 (Cert.Spec.row x8) x9 (Cert.Spec.row x10))
          (Cert.Spec.mean (Cert.Spec.colsum (Cert.Spec.H1 x0 (xA x1 x2 x3 x4) x5 (Cert.Spec.row x6) x7 (Cert.Spec.row x8) x9 (Cert.Spec.row x10))))
          (Cert.Spec.varK (Cert.Spec.colsum (Cert.Spec.H1 x0 (xA x1 x2 x3 x4) x5 (Cert.Spec.row x6) x7 (Cert.Spec.row x8) x9 (Cert.Spec.row x10)))
            (Cert.Spec.colsumsq (Cert.Spec.H1 x0 (xA x1 x2 x3 x4) x5 (Cert.Spec.row x6) x7 (Cert.Spec.row x8) x9 (Cert.Spec.row x10))))
          (Cert.Spec.row x11) (Cert.Spec.row x12) x13 (Cert.Spec.row x14) := by
  have hh := ref_h1 x0 x1 x2 x3 x4 x5 x6 x7 x8 x9 x10
  generalize Cert.Spec.H1 x0 (xA x1 x2 x3 x4) x5 (Cert.Spec.row x6) x7 (Cert.Spec.row x8) x9 (Cert.Spec.row x10) = h at hh hfin ⊢
  funext i
  obtain ⟨p, q, rfl⟩ : ∃ (p : Fin 100000) (q : Fin 64), i = ix2 p q := ⟨i 0, i 1, eq_ix2 i⟩
  rw [val_main_v63_apply, val_main_v60_apply, val_main_v62_apply, val_main_v61_apply, idx6162, Ideal.addf_def]
  show (∑ k : Fin 128, _) + _
    = (∑ k : Fin 128, ((((h (ix2 p k) - Cert.Spec.mean (Cert.Spec.colsum h) (ix2 0 k))
          * Ideal.rsqrt (Cert.Spec.varK (Cert.Spec.colsum h) (Cert.Spec.colsumsq h) (ix2 0 k) + Cert.Spec.eps32))
          * x11 (ix1 k)) + x12 (ix1 k)) * x13 (ix2 q k)) + x14 (ix1 q)
  refine congrArg (· + x14 (ix1 q)) (Finset.sum_congr rfl fun k _ => ?_)
  rw [lidx60, ridx60, val_main_v59_apply, idx59, val_main_v58_apply, val_main_v57_apply, val_main_v56_apply, idx5657,
    val_main_v55_apply, val_main_v54_apply, val_main_v53_apply, idx5354, val_main_v52_apply, val_main_v51_apply,
    val_main_v50_apply, idx5051, val_main_v49_apply, val_main_v48_apply, val_main_v47_apply, val_main_cst_5_apply,
    val_main_v46_apply, val_main_v45_apply, val_main_v44_apply, idx4445,
    var_at x0 x1 x2 x3 x4 x5 x6 x7 x8 x9 x10 h hh hfin, mean_at x0 x1 x2 x3 x4 x5 x6 x7 x8 x9 x10 h hh, hh,
    Ideal.addf_def, Ideal.mulf_def, Ideal.mulf_def, Ideal.subf_def, Ideal.hostUnary_rsqrt_def, Ideal.addf_def, Ideal.ofBits_def]

/-- A scatter-add of real updates into a real array is real: each entry is its own plus finitely many updates. -/
private theorem scatterAdd_real {s si su : Shape} (d : ScatterDims s si su) {w : Nat} (x : s.Idx → EReal) (idx : IVec si w)
    (upd : su.Idx → EReal) (hx : ∀ i, IsR (x i)) (hu : ∀ j, IsR (upd j)) (i : s.Idx) :
    IsR (Host.scatterAdd (F := Ideal) (φ := .f32) d x idx upd i) := by
  simp only [Host.scatterAdd, Ideal.hostScatterAdd_def]
  unfold Ideal.hostScatterAdd
  exact Cert.Reals.isR_add (hx i) (Cert.Reals.isR_sum _ _ fun j _ => hu j)

/-- The aggregated features are real when the table and the bias are: a gather picks table entries, a scatter-add
    adds finitely many of them. -/
theorem xA_real (x1 x2 : (⟨S1600000, .i32⟩ : BufTy).Contents (Elt Ideal)) (x3 : (⟨S128x100000, .f32⟩ : BufTy).Contents (Elt Ideal)) (x4 : (⟨S128, .f32⟩ : BufTy).Contents (Elt Ideal))
    (h3 : ∀ i, IsR (x3 i)) (h4 : ∀ i, IsR (x4 i)) : ∀ i, IsR (xA x1 x2 x3 x4 i) := by
  intro i
  show IsR (val_main_v13 (F := Ideal) x1 x2 x3 x4 i)
  rw [val_main_v13_apply, Ideal.addf_def]
  refine Cert.Reals.isR_add ?_ ?_
  · unfold val_main_v10
    refine scatterAdd_real _ _ _ _ (fun j => ?_) (fun j => ?_) i
    · rw [val_main_v8_apply, val_main_cst_apply, Ideal.ofBits_def]
      exact Cert.Reals.isR_zero32
    · unfold val_main_v7 Host.gather
      rw [val_main_v0_apply]
      exact h3 _
  · rw [val_main_v12_apply, val_main_v11_apply]
    exact h4 _

end Cert.ReferenceIdeal.RefSpec

end
-- ==== Proof.SpecReal.lean ====
/-
  The activations are real numbers when every input is: each stage of `Spec.H1` is built from finite sums, products
  and maxima of real entries.
-/
import proofs.«414882_j86947317941135_1_alg».proof.Proof.Spec
import proofs.«414882_j86947317941135_1_alg».proof.Proof.Reals

noncomputable section

namespace Cert.Spec

open Idealize.ShloMosaic Idealize.ShloMosaic.ValueIdx Cert.Reals

theorem row_real {a : ℕ} (b : Vc a) (hb : ∀ i, IsR (b i)) : ∀ i, IsR (row b i) := by
  intro i
  unfold row
  exact hb _

/-- The first linear layer: a finite sum of products of real entries plus a real entry. -/
private theorem xX_real {n : ℕ} (x : Mat n 128) (WX : Mat 128 128) (bX : Mat 1 128)
    (hx : ∀ i, IsR (x i)) (hWX : ∀ i, IsR (WX i)) (hbX : ∀ i, IsR (bX i)) : ∀ i, IsR (xX x WX bX i) := by
  intro i
  unfold xX
  exact isR_add (isR_sum _ _ fun k _ => isR_mul (hx _) (hWX _)) (hbX _)

/-- An entry of the join is an entry of one of its two halves. -/
private theorem cat_real {n : ℕ} (xA xXv : Mat n 128) (hA : ∀ i, IsR (xA i)) (hX : ∀ i, IsR (xXv i))
    (p : Fin n) (k : Fin 256) : IsR (cat xA xXv p k) := by
  unfold cat
  split
  · exact hA _
  · exact hX _

/-- The hidden layer: sums, products and a maximum with zero of real entries. -/
private theorem hid_real {n : ℕ} (xA xXv : Mat n 128) (W : Mat 128 256) (bW : Mat 1 128)
    (hA : ∀ i, IsR (xA i)) (hX : ∀ i, IsR (xXv i)) (hW : ∀ i, IsR (W i)) (hbW : ∀ i, IsR (bW i)) :
    ∀ i, IsR (hid xA xXv W bW i) := by
  intro i
  unfold hid
  exact isR_max
    (isR_add
      (isR_add (isR_add (isR_sum _ _ fun k _ => isR_mul (cat_real xA xXv hA hX _ k) (hW _)) (hbW _)) (hA _))
      (hX _))
    isR_zero32

/-- The last clipped linear layer. -/
private theorem act_real {n : ℕ} (h : Mat n 128) (W1 : Mat 128 128) (b1 : Mat 1 128)
    (hh : ∀ i, IsR (h i)) (hW1 : ∀ i, IsR (W1 i)) (hb1 : ∀ i, IsR (b1 i)) : ∀ i, IsR (act h W1 b1 i) := by
  intro i
  unfold act
  exact isR_max (isR_add (isR_sum _ _ fun k _ => isR_mul (hh _) (hW1 _)) (hb1 _)) isR_zero32

theorem H1_real (x xA : Mat NR 128) (WX : Mat 128 128) (bX : Mat 1 128) (W : Mat 128 256) (bW : Mat 1 128)
    (W1 : Mat 128 128) (b1 : Mat 1 128)
    (hx : ∀ i, IsR (x i)) (hxA : ∀ i, IsR (xA i)) (hWX : ∀ i, IsR (WX i)) (hbX : ∀ i, IsR (bX i)) (hW : ∀ i, IsR (W i))
    (hbW : ∀ i, IsR (bW i)) (hW1 : ∀ i, IsR (W1 i)) (hb1 : ∀ i, IsR (b1 i)) :
    ∀ i, IsR (H1 x xA WX bX W bW W1 b1 i) := by
  unfold H1
  exact act_real _ W1 b1 (hid_real xA _ W bW hxA (xX_real x WX bX hx hWX hbX) hW hbW) hW1 hb1

end Cert.Spec

end
-- ==== Proof.PreDecode.lean ====
/-
  What the precondition says, entry by entry. It is a conjunction, over the thirteen float inputs, of "every entry
  is smaller in absolute value than +∞", and of "every column index is at least -100000 and less than 100000". An
  extended real whose absolute value is below +∞ is a real number.
-/
import proofs.«414882_j86947317941135_1_alg».proof.Pre_finite_inputs
import proofs.«414882_j86947317941135_1_alg».proof.Proof.Gen.Pre_finite_inputs
import proofs.«414882_j86947317941135_1_alg».proof.Proof.Spec
import proofs.«414882_j86947317941135_1_alg».proof.Proof.Reals
import Idealize.ShloMosaic.Lib.ReduceAll
import Idealize.ShloMosaic.Lib.ValueIdx
import Idealize.ShloMosaic.Lib.StableHlo.Predicate

noncomputable section

namespace Cert.Pre_finite_inputs.Decode

open Cert.Pre_finite_inputs Idealize.ShloMosaic Idealize.ShloMosaic.ValueIdx Cert.Reals

variable [Facts]

/-- The precondition's content: every float input real, every column index in range. -/
structure Ok (a0 : FVec Ideal S100000x128 .f32) (a1 a2 : IVec S1600000 32) (a3 : FVec Ideal S128x100000 .f32) (a4 : FVec Ideal S128 .f32)
    (a5 : FVec Ideal S128x128 .f32) (a6 : FVec Ideal S128 .f32) (a7 : FVec Ideal S128x256 .f32) (a8 : FVec Ideal S128 .f32)
    (a9 : FVec Ideal S128x128 .f32) (a10 a11 a12 : FVec Ideal S128 .f32) (a13 : FVec Ideal S64x128 .f32) (a14 : FVec Ideal S64 .f32) : Prop where
  r0 : ∀ i, IsR (a0 i)
  r3 : ∀ i, IsR (a3 i)
  r4 : ∀ i, IsR (a4 i)
  r5 : ∀ i, IsR (a5 i)
  r6 : ∀ i, IsR (a6 i)
  r7 : ∀ i, IsR (a7 i)
  r8 : ∀ i, IsR (a8 i)
  r9 : ∀ i, IsR (a9 i)
  r10 : ∀ i, IsR (a10 i)
  r11 : ∀ i, IsR (a11 i)
  r12 : ∀ i, IsR (a12 i)
  r13 : ∀ i, IsR (a13 i)
  r14 : ∀ i, IsR (a14 i)
  col : Cert.Spec.ColOk a2

/-- The scalar shape has one index. -/
local instance : Subsingleton S_.Idx := ⟨fun a b => funext fun d => d.elim0⟩

/-- An extended real whose absolute value is below the infinity word is a real number. -/
private theorem isR_of_abs_lt (x : EReal)
    (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- The printed "all entries finite" of one float input, read back: every entry is real. -/
private theorem all_finite {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
        (cmpf .olt (Host.absf x) (broadcastInDim s ![] hb (constant S_ .f32 0x7F800000#32)))
        (constantI S_ 1 1#1) hr h0 ix0 = 1#1) (i : s.Idx) : IsR (x i) :=
  isR_of_abs_lt (x i) (Host.reduce_andi_all _ _ hr h0 ix0 e i)

/-- The last part: the conjunction so far, and both comparisons of the column indices at every entry. -/
private theorem part4 (v63 : IVec S_ 1) (v65 v67 : IVec S1600000 1)
    (h : fn_part4 (F := Ideal) v63 v65 v67 ix0 = 1#1) :
    v63 ix0 = 1#1 ∧ ∀ e, v65 e = 1#1 ∧ v67 e = 1#1 := by
  unfold fn_part4 at h
  dsimp only at h
  obtain ⟨h1, h2⟩ := IntOp.andi_eq_one.1 h
  exact ⟨h1, fun e => IntOp.andi_eq_one.1 (Host.reduce_andi_all _ _ _ _ ix0 h2 e)⟩

/-- The third part: the conjunction so far, the comparison handed in for the twelfth input, the last two float inputs, and
    the column range. -/
private theorem part3 (a2 : IVec S1600000 32) (a13 : FVec Ideal S64x128 .f32) (a14 : FVec Ideal S64 .f32)
    (v48 : IVec S_ 1) (v49 v50 : FVec Ideal S128 .f32)
    (h : fn_part3 (F := Ideal) a2 a13 a14 v48 v49 v50 ix0 = 1#1) :
    v48 ix0 = 1#1 ∧ (∀ i, cmpf .olt v49 v50 i = 1#1) ∧ (∀ i, IsR (a13 i)) ∧ (∀ i, IsR (a14 i)) ∧ Cert.Spec.ColOk a2 := by
  unfold fn_part3 at h
  dsimp only at h
  obtain ⟨h63, hcol⟩ := part4 _ _ _ h
  obtain ⟨h58, h62⟩ := IntOp.andi_eq_one.1 h63
  obtain ⟨h53, h57⟩ := IntOp.andi_eq_one.1 h58
  obtain ⟨h48, h52⟩ := IntOp.andi_eq_one.1 h53
  exact ⟨h48, fun i => Host.reduce_andi_all _ _ _ _ ix0 h52 i, all_finite a13 _ _ _ h57, all_finite a14 _ _ _ h62,
    fun e => hcol e⟩

/-- The second part: the conjunction so far and the float inputs nine to fourteen, and the column range. -/
private theorem part2 (a2 : IVec S1600000 32) (a9 : FVec Ideal S128x128 .f32) (a10 a11 a12 : FVec Ideal S128 .f32)
    (a13 : FVec Ideal S64x128 .f32) (a14 : FVec Ideal S64 .f32) (v33 : IVec S_ 1)
    (h : fn_part2 (F := Ideal) a2 a9 a10 a11 a12 a13 a14 v33 ix0 = 1#1) :
    v33 ix0 = 1#1 ∧ (∀ i, IsR (a9 i)) ∧ (∀ i, IsR (a10 i)) ∧ (∀ i, IsR (a11 i)) ∧ (∀ i, IsR (a12 i))
      ∧ (∀ i, IsR (a13 i)) ∧ (∀ i, IsR (a14 i)) ∧ Cert.Spec.ColOk a2 := by
  unfold fn_part2 at h
  dsimp only at h
  obtain ⟨h48, h12, h13, h14, hcol⟩ := part3 _ _ _ _ _ _ h
  obtain ⟨h43, h47⟩ := IntOp.andi_eq_one.1 h48
  obtain ⟨h38, h42⟩ := IntOp.andi_eq_one.1 h43
  obtain ⟨h33, h37⟩ := IntOp.andi_eq_one.1 h38
  exact ⟨h33, all_finite a9 _ _ _ h37, all_finite a10 _ _ _ h42, all_finite a11 _ _ _ h47,
    fun i => isR_of_abs_lt (a12 i) (h12 i), h13, h14, hcol⟩

/-- The first part: the conjunction so far, the comparison handed in for the fifth input, and the float inputs six to
    fourteen, and the column range. -/
private theorem part1 (a2 : IVec S1600000 32) (a6 : FVec Ideal S128 .f32) (a7 : FVec Ideal S128x256 .f32)
    (a8 : FVec Ideal S128 .f32) (a9 : FVec Ideal S128x128 .f32) (a10 a11 a12 : FVec Ideal S128 .f32)
    (a13 : FVec Ideal S64x128 .f32) (a14 : FVec Ideal S64 .f32) (v13 : IVec S_ 1) (v16 : IVec S128x128 1)
    (h : fn_part1 (F := Ideal) a2 a6 a7 a8 a9 a10 a11 a12 a13 a14 v13 v16 ix0 = 1#1) :
    v13 ix0 = 1#1 ∧ (∀ i, v16 i = 1#1) ∧ (∀ i, IsR (a6 i)) ∧ (∀ i, IsR (a7 i)) ∧ (∀ i, IsR (a8 i))
      ∧ (∀ i, IsR (a9 i)) ∧ (∀ i, IsR (a10 i)) ∧ (∀ i, IsR (a11 i)) ∧ (∀ i, IsR (a12 i))
      ∧ (∀ i, IsR (a13 i)) ∧ (∀ i, IsR (a14 i)) ∧ Cert.Spec.ColOk a2 := by
  unfold fn_part1 at h
  dsimp only at h
  obtain ⟨h33, h9, h10, h11, h12, h13, h14, hcol⟩ := part2 _ _ _ _ _ _ _ _ h
  obtain ⟨h28, h32⟩ := IntOp.andi_eq_one.1 h33
  obtain ⟨h23, h27⟩ := IntOp.andi_eq_one.1 h28
  obtain ⟨h18, h22⟩ := IntOp.andi_eq_one.1 h23
  obtain ⟨hv13, h17⟩ := IntOp.andi_eq_one.1 h18
  exact ⟨hv13, fun i => Host.reduce_andi_all _ _ _ _ ix0 h17 i, all_finite a6 _ _ _ h22, all_finite a7 _ _ _ h27,
    all_finite a8 _ _ _ h32, h9, h10, h11, h12, h13, h14, hcol⟩

theorem decode (a0 : FVec Ideal S100000x128 .f32) (a1 a2 : IVec S1600000 32) (a3 : FVec Ideal S128x100000 .f32) (a4 : FVec Ideal S128 .f32)
    (a5 : FVec Ideal S128x128 .f32) (a6 : FVec Ideal S128 .f32) (a7 : FVec Ideal S128x256 .f32) (a8 : FVec Ideal S128 .f32)
    (a9 : FVec Ideal S128x128 .f32) (a10 a11 a12 : FVec Ideal S128 .f32) (a13 : FVec Ideal S64x128 .f32) (a14 : FVec Ideal S64 .f32)
    (h : fn (F := Ideal) a0 a1 a2 a3 a4 a5 a6 a7 a8 a9 a10 a11 a12 a13 a14 = (fun _ => 1#1)) :
    Ok a0 a1 a2 a3 a4 a5 a6 a7 a8 a9 a10 a11 a12 a13 a14 := by
  have h0 := congrFun h ix0
  unfold fn at h0
  dsimp only at h0
  obtain ⟨h13, h5, h6, h7, h8, h9, h10, h11, h12, hr13, h14, hcol⟩ := part1 _ _ _ _ _ _ _ _ _ _ _ _ h0
  obtain ⟨h8', hv12⟩ := IntOp.andi_eq_one.1 h13
  obtain ⟨hv3, hv7⟩ := IntOp.andi_eq_one.1 h8'
  exact ⟨all_finite a0 _ _ _ hv3, all_finite a3 _ _ _ hv7, all_finite a4 _ _ _ hv12,
    fun i => isR_of_abs_lt (a5 i) (h5 i), h6, h7, h8, h9, h10, h11, h12, hr13, h14, hcol⟩

end Cert.Pre_finite_inputs.Decode

end
-- ==== Proof.Value.lean ====
/-
  The kernel program's result is the reference's. The result buffer ends at what the second region leaves:
  `Spec.out` of what that region finds — the activations the first region left, their column mean and the mean of
  squares less the squared mean (from the first region's two running rows, divided by the row count on the host),
  the reshaped scale, shift and bias, the last weights. The first region leaves `Spec.H1` of what it finds: the
  node features, the aggregated features, the weights and reshaped biases. Under the precondition the aggregated
  features are the reference's own (every column index is in range, so no gathered row is replaced) and every
  activation is a real number, so the reference's mean squared deviation is the kernel's variance, and the
  reference's result is the same `Spec.out`.
-/
import proofs.«414882_j86947317941135_1_alg».proof.Proof.Launch
import proofs.«414882_j86947317941135_1_alg».proof.Proof.Glue
import proofs.«414882_j86947317941135_1_alg».proof.Proof.Region0
import proofs.«414882_j86947317941135_1_alg».proof.Proof.Accum
import proofs.«414882_j86947317941135_1_alg».proof.Proof.Region1
import proofs.«414882_j86947317941135_1_alg».proof.Proof.RefSpec
import proofs.«414882_j86947317941135_1_alg».proof.Proof.SpecReal
import proofs.«414882_j86947317941135_1_alg».proof.Proof.PreDecode
import proofs.«414882_j86947317941135_1_alg».proof.Defs

set_option maxRecDepth 16384

noncomputable section

namespace Cert.KernelIdeal.Val

open Cert.KernelIdeal Cert.KernelIdeal.Gen Idealize.ShloMosaic Idealize.ShloMosaic.TcCoe Idealize.SL.Sem
open Cert.Reals (IsR)

variable (m : (ℓ : Loc nD τ sig) → Buf (Elt Ideal) ℓ) (ρ : Dev nD → PrngReg)

/-- The reference's result term at the kernel's launch memory. -/
abbrev refOut (c : Dev nD) :=
  Cert.ReferenceIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))

/-- Under the precondition the result buffer's last contents are the reference's result of the same arguments. -/
theorem result_eq [Cert.Pre_finite_inputs.Facts] (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) = (fun _ => 1#1)) :
    W6 (F := Ideal) m ρ c (Proc.devRef .tc main_v21) = refOut m c := by
  have ok := Cert.Pre_finite_inputs.Decode.decode _ _ _ _ _ _ _ _ _ _ _ _ _ _ _ hpre
  have hxA := Cert.ReferenceIdeal.RefSpec.xA_real (m ((c.tc : Thread nD τ).loc main_arg1)) (m ((c.tc : Thread nD τ).loc main_arg2)) (m ((c.tc : Thread nD τ).loc main_arg3)) (m ((c.tc : Thread nD τ).loc main_arg4)) ok.r3 ok.r4
  have hfin := Cert.Spec.H1_real (m ((c.tc : Thread nD τ).loc main_arg0)) (Cert.ReferenceIdeal.RefSpec.xA (m ((c.tc : Thread nD τ).loc main_arg1)) (m ((c.tc : Thread nD τ).loc main_arg2)) (m ((c.tc : Thread nD τ).loc main_arg3)) (m ((c.tc : Thread nD τ).loc main_arg4)))
    (m ((c.tc : Thread nD τ).loc main_arg5)) (Cert.Spec.row (m ((c.tc : Thread nD τ).loc main_arg6))) (m ((c.tc : Thread nD τ).loc main_arg7)) (Cert.Spec.row (m ((c.tc : Thread nD τ).loc main_arg8))) (m ((c.tc : Thread nD τ).loc main_arg9)) (Cert.Spec.row (m ((c.tc : Thread nD τ).loc main_arg10)))
    ok.r0 hxA ok.r5 (Cert.Spec.row_real _ ok.r6) ok.r7 (Cert.Spec.row_real _ ok.r8) ok.r9 (Cert.Spec.row_real _ ok.r10)
  rw [W6_v21, arr1_7, V5_v11_0, V5_v13, V5_v17, V5_v18, V5_v19, V5_arg13, V5_v20, arr0_8, arr0_9, arr0_10]
  dsimp only [H1V]
  rw [V3_arg0, V3_v7 m ρ c ok.col, V3_arg5, V3_v8, V3_arg7, V3_v9, V3_arg9, V3_v10]
  exact (Cert.ReferenceIdeal.RefSpec.ref_out _ _ _ _ _ _ _ _ _ _ _ _ _ _ _ hfin).symm

end Cert.KernelIdeal.Val

end
-- ==== Proof.lean ====
/-
  The certificate: the three programs run to the end leaving their arguments as launched, the idealized kernel is
  the kernel's own text read at the extended reals, and the idealized kernel and the idealized reference end with
  equal results. The two kernel programs' runs are the generated frames; the reference's is its generated run with
  the result dropped. For the equal results both runs are posted with ONE term, the reference's result of the
  arguments: the kernel's run by `Val.result_eq`, the reference's by its own run, the arguments' agreement rewritten.
-/
import proofs.«414882_j86947317941135_1_alg».proof.Defs
import proofs.«414882_j86947317941135_1_alg».proof.Proof.Gen.Kernel
import proofs.«414882_j86947317941135_1_alg».proof.Proof.Gen.Kernel.Skeleton
import proofs.«414882_j86947317941135_1_alg».proof.Proof.Gen.Kernel.Launch
import proofs.«414882_j86947317941135_1_alg».proof.Proof.Gen.Kernel.Points
import proofs.«414882_j86947317941135_1_alg».proof.Proof.Gen.Kernel.Frame
import proofs.«414882_j86947317941135_1_alg».proof.Proof.Gen.KernelIdeal
import proofs.«414882_j86947317941135_1_alg».proof.Proof.Gen.KernelIdeal.Skeleton
import proofs.«414882_j86947317941135_1_alg».proof.Proof.Gen.KernelIdeal.Launch
import proofs.«414882_j86947317941135_1_alg».proof.Proof.Gen.KernelIdeal.Points
import proofs.«414882_j86947317941135_1_alg».proof.Proof.Gen.KernelIdeal.Frame
import proofs.«414882_j86947317941135_1_alg».proof.Proof.Gen.ReferenceIdeal
import proofs.«414882_j86947317941135_1_alg».proof.Proof.Gen.Pre_finite_inputs
import proofs.«414882_j86947317941135_1_alg».proof.Proof.Gen.ReferenceIdeal.Run
import proofs.«414882_j86947317941135_1_alg».proof.Proof.Gen.ReferenceIdeal.Read
import Idealize.ShloMosaic.Adequacy
import Idealize.ShloMosaic.Init

import proofs.«414882_j86947317941135_1_alg».proof.Proof.Value

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end at the reference's result term of the kernel's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  letI := Cert.Pre_finite_inputs.Gen.facts
  refine ⟨fun c => Cert.KernelIdeal.Val.refOut m c, ?_, ?_⟩
  · exact (θ_run Cert.KernelIdeal.defs _ _).mono
      (fun r h c => ⟨(h c).1.trans (Cert.KernelIdeal.Val.result_eq m ρ c (hpre c)), (h c).2⟩)
      (Cert.KernelIdeal.Gen.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v63_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
